-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v8_1)) (v3 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v8_1) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x193x512 : Shape := ⟨3, ![512, 193, 512]⟩
abbrev S512x77x512 : Shape := ⟨3, ![512, 77, 512]⟩
abbrev S1 : Shape := ⟨1, ![1]⟩
abbrev S512x77 : Shape := ⟨2, ![512, 77]⟩
abbrev S512x6x77 : Shape := ⟨3, ![512, 6, 77]⟩
abbrev S_ : Shape := ⟨0, ![]⟩

class Facts : Prop where
  bcast_S_S512x193x512 : S_.BroadcastsInDim S512x193x512 (![] : Fin 0 → Fin S512x193x512.rank)
  reducesTo_S512x193x512_S_d0_1_2 : S512x193x512.ReducesTo [0, 1, 2] S_
  h_S_ : 0 < S_.numel
  bcast_S_S512x77x512 : S_.BroadcastsInDim S512x77x512 (![] : Fin 0 → Fin S512x77x512.rank)
  reducesTo_S512x77x512_S_d0_1_2 : S512x77x512.ReducesTo [0, 1, 2] S_
  bcast_S_S1 : S_.BroadcastsInDim S1 (![] : Fin 0 → Fin S1.rank)
  reducesTo_S1_S_d0 : S1.ReducesTo [0] S_

variable [Facts]

def fn {F : FTy → Type} [FloatOps F] (main_arg0 : FVec F S512x193x512 .f32) (main_arg1 : FVec F S512x77x512 .f32) (main_arg2 : FVec F S1 .f32) (main_arg3 : IVec S512x77 32) (main_arg4 : IVec S512x6x77 32) : IVec S_ 1 :=
  let main_v0 : FVec F S512x193x512 .f32 := Host.absf main_arg0
  let main_cst : FVec F S_ .f32 := constant S_ .f32 0x7F800000#32
  let main_v1 : FVec F S512x193x512 .f32 := broadcastInDim S512x193x512 ![] bcast_S_S512x193x512 main_cst
  let main_v2 : IVec S512x193x512 1 := cmpf .olt main_v0 main_v1
  let main_c : IVec S_ 1 := constantI S_ 1 1#1
  let main_v3 : IVec S_ 1 := (fun x v => Host.reduce IntOp.andi x v reducesTo_S512x193x512_S_d0_1_2 h_S_) main_v2 main_c
  let main_v4 : FVec F S512x77x512 .f32 := Host.absf main_arg1
  let main_cst_0 : FVec F S_ .f32 := constant S_ .f32 0x7F800000#32
  let main_v5 : FVec F S512x77x512 .f32 := broadcastInDim S512x77x512 ![] bcast_S_S512x77x512 main_cst_0
  let main_v6 : IVec S512x77x512 1 := cmpf .olt main_v4 main_v5
  let main_c_1 : IVec S_ 1 := constantI S_ 1 1#1
  let main_v7 : IVec S_ 1 := (fun x v => Host.reduce IntOp.andi x v reducesTo_S512x77x512_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S512x193x512 : Shape := ⟨3, ![512, 193, 512]⟩
abbrev S512x77x512 : Shape := ⟨3, ![512, 77, 512]⟩
abbrev S1 : Shape := ⟨1, ![1]⟩
abbrev S512x77 : Shape := ⟨2, ![512, 77]⟩
abbrev S512x6x77 : Shape := ⟨3, ![512, 6, 77]⟩
abbrev S512x1x512 : Shape := ⟨3, ![512, 1, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S512x6x512 : Shape := ⟨3, ![512, 6, 512]⟩
abbrev S64x77x512 : Shape := ⟨3, ![64, 77, 512]⟩
abbrev S64x77 : Shape := ⟨2, ![64, 77]⟩
abbrev S64x6x77 : Shape := ⟨3, ![64, 6, 77]⟩
abbrev S64x512 : Shape := ⟨2, ![64, 512]⟩
abbrev S64x6x512 : Shape := ⟨3, ![64, 6, 512]⟩
abbrev S64x77x128 : Shape := ⟨3, ![64, 77, 128]⟩
abbrev S64x77x1 : Shape := ⟨3, ![64, 77, 1]⟩
abbrev S64x128 : Shape := ⟨2, ![64, 128]⟩

abbrev nBuf : Space → Nat
  | .hbm => 19
  | .vmem => 10
  | .smem => 0
  | _ => 0

abbrev bufTy : (tb : Table) → Fin (tcTables nBuf tb) → BufTy
  | .hbm, ⟨0, _⟩ => ⟨S512x193x512, .f32⟩
  | .hbm, ⟨1, _⟩ => ⟨S512x77x512, .f32⟩
  | .hbm, ⟨2, _⟩ => ⟨S1, .f32⟩
  | .hbm, ⟨3, _⟩ => ⟨S512x77, .i32⟩
  | .hbm, ⟨4, _⟩ => ⟨S512x6x77, .i32⟩
  | .hbm, ⟨5, _⟩ => ⟨S512x1x512, .f32⟩
  | .hbm, ⟨6, _⟩ => ⟨S512x512, .f32⟩
  | .hbm, ⟨7, _⟩ => ⟨S512x77, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512x77, .i32⟩
  | .hbm, ⟨13, _⟩ => ⟨S512x1, .i32⟩
  | .hbm, ⟨14, _⟩ => ⟨S512x77, .i32⟩
  | .hbm, ⟨15, _⟩ => ⟨S512x77, .i1⟩
  | .hbm, ⟨16, _⟩ => ⟨S512x77, .f32⟩
  | .hbm, ⟨17, _⟩ => ⟨S512x512, .f32⟩
  | .hbm, ⟨18, _⟩ => ⟨S512x6x512, .f32⟩
  | .local _ .vmem, ⟨0, _⟩ => ⟨S64x77x512, .f32⟩
  | .local _ .vmem, ⟨1, _⟩ => ⟨S64x77x512, .f32⟩
  | .local _ .vmem, ⟨2, _⟩ => ⟨S64x77, .f32⟩
  | .local _ .vmem, ⟨3, _⟩ => ⟨S64x77, .f32⟩
  | .local _ .vmem, ⟨4, _⟩ => ⟨S64x6x77, .i32⟩
  | .local _ .vmem, ⟨5, _⟩ => ⟨S64x6x77, .i32⟩
  | .local _ .vmem, ⟨6, _⟩ => ⟨S64x512, .f32⟩
  | .local _ .vmem, ⟨7, _⟩ => ⟨S64x512, .f32⟩
  | .local _ .vmem, ⟨8, _⟩ => ⟨S64x6x512, .f32⟩
  | .local _ .vmem, ⟨9, _⟩ => ⟨S64x6x512, .f32⟩
  | _, _ => ⟨S512x193x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_c_0 : Ref sig .tc := ⟨.hbm, 9, rfl⟩
abbrev main_call0_v1_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x77x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x77 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x6x77 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x6x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S512x193x512_S512x1x512_0_0_0 : S512x193x512.Slices ![0, 0, 0] S512x1x512
  shapeCasts_S512x1x512_S512x512 : S512x1x512.ShapeCasts S512x512
  reducesTo_S512x77_S512_d1 : S512x77.ReducesTo [1] S512
  h_S_ : 0 < S_.numel
  bcast_S512_S512x1_0 : S512.BroadcastsInDim S512x1 (![0] : Fin 1 → Fin S512x1.rank)
  bcast_S512x1_S512x77_0_1 : S512x1.BroadcastsInDim S512x77 (![0, 1] : Fin 2 → Fin S512x77.rank)
  inb_S64x77_S64x77_0_0 : ∀ a, (![0, 0] : Fin 2 → Nat) a + S64x77.size a ≤ S64x77.size a
  h_S64x77 : 0 < S64x77.numel
  shapeCasts_S64x77_S64x77 : S64x77.ShapeCasts S64x77
  inb_S64x77x512_S64x77x128_0_0_0 : ∀ a, (![0, 0, 0] : Fin 3 → Nat) a + S64x77x128.size a ≤ S64x77x512.size a
  h_S64x77x128 : 0 < S64x77x128.numel
  shapeCasts_S64x77_S64x77x1 : S64x77.ShapeCasts S64x77x1
  broadcasts_S64x77x1_S64x77x128 : S64x77x1.Broadcasts S64x77x128
  reduces_S64x77x128_S64x128 : S64x77x128.Reduces [1] S64x128
  inb_S64x512_S64x128_0_0 : ∀ a, (![0, 0] : Fin 2 → Nat) a + S64x128.size a ≤ S64x512.size a
  h_S64x128 : 0 < S64x128.numel
  inb_S64x77x512_S64x77x128_0_0_128 : ∀ a, (![0, 0, 128] : Fin 3 → Nat) a + S64x77x128.size a ≤ S64x77x512.size a
  inb_S64x512_S64x128_0_128 : ∀ a, (![0, 128] : Fin 2 → Nat) a + S64x128.size a ≤ S64x512.size a
  inb_S64x77x512_S64x77x128_0_0_256 : ∀ a, (![0, 0, 256] : Fin 3 → Nat) a + S64x77x128.size a ≤ S64x77x512.size a
  inb_S64x512_S64x128_0_256 : ∀ a, (![0, 256] : Fin 2 → Nat) a + S64x128.size a ≤ S64x512.size a
  inb_S64x77x512_S64x77x128_0_0_384 : ∀ a, (![0, 0, 384] : Fin 3 → Nat) a + S64x77x128.size a ≤ S64x77x512.size a
  inb_S64x512_S64x128_0_384 : ∀ a, (![0, 384] : Fin 2 → Nat) a + S64x128.size a ≤ S64x512.size a
  inb_S64x77x512_S64x77x512_0_0_0 : ∀ a, (![0, 0, 0] : Fin 3 → Nat) a + S64x77x512.size a ≤ S64x77x512.size a
  h_S64x77x512 : 0 < S64x77x512.numel
  bitsLt_bf16_f32 : FTy.bits .bf16 < FTy.bits .f32
  inb_S64x6x77_S64x6x77_0_0_0 : ∀ a, (![0, 0, 0] : Fin 3 → Nat) a + S64x6x77.size a ≤ S64x6x77.size a
  h_S64x6x77 : 0 < S64x6x77.numel
  inb_S64x6x512_S64x6x512_0_0_0 : ∀ a, (![0, 0, 0] : Fin 3 → Nat) a + S64x6x512.size a ≤ S64x6x512.size a
  h_S64x6x512 : 0 < S64x6x512.numel
  dot_S64x6x77_S64x77x512_S64x6x512_2_1_1_2_0_0_wf : DotDims.WF S64x6x77 S64x77x512 S64x6x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x77x512.size a ≤ S512x77x512.size a
  hwx0_0 : ∀ i : grid0.Coords, EltTy.bits .f32 = 32 ∨ (Rect.block (s := S512x77x512) S64x77x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x77.size a ≤ S512x77.size a
  hwx0_1 : ∀ i : grid0.Coords, EltTy.bits .f32 = 32 ∨ (Rect.block (s := S512x77) S64x77.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x6x77.size a ≤ S512x6x77.size a
  hwx0_2 : ∀ i : grid0.Coords, EltTy.bits .i32 = 32 ∨ (Rect.block (s := S512x6x77) S64x6x77.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S512x512.size a
  hwx0_3 : ∀ i : grid0.Coords, EltTy.bits .f32 = 32 ∨ (Rect.block (s := S512x512) S64x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x6x512.size a ≤ S512x6x512.size a
  hwx0_4 : ∀ i : grid0.Coords, EltTy.bits .f32 = 32 ∨ (Rect.block (s := S512x6x512) S64x6x512.size (cc0_transform_4 i) (hinb0_4 i)).WholeWords (EltTy.packing .f32)

variable [Facts₀]

def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S64x6x77_S64x77x512_S64x6x512_2_1_1_2_0_0 : DotDims S64x6x77 S64x77x512 S64x6x512 where
  lhsContracting := [2]
  rhsContracting := [1]
  lhsNonContracting := [1]
  rhsNonContracting := [2]
  lhsBatch := [0]
  rhsBatch := [0]
  wf := dot_S64x6x77_S64x77x512_S64x6x512_2_1_1_2_0_0_wf

abbrev win0_0 : Pipeline.Window sig grid0 :=
  Pipeline.Window.ofSpec (Memref.whole main_arg1) S64x77x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S64x77.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x6x77.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S64x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S64x6x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x193x512 : Shape := ⟨3, ![512, 193, 512]⟩
abbrev S512x77x512 : Shape := ⟨3, ![512, 77, 512]⟩
abbrev S1 : Shape := ⟨1, ![1]⟩
abbrev S512x77 : Shape := ⟨2, ![512, 77]⟩
abbrev S512x6x77 : Shape := ⟨3, ![512, 6, 77]⟩
abbrev S512x1x512 : Shape := ⟨3, ![512, 1, 512]⟩
abbrev S512x512 : Shape := ⟨2, ![512, 512]⟩
abbrev S_ : Shape := ⟨0, ![]⟩
abbrev S512 : Shape := ⟨1, ![512]⟩
abbrev S512x1 : Shape := ⟨2, ![512, 1]⟩
abbrev S512x2 : Shape := ⟨2, ![512, 2]⟩
abbrev S512x6x512 : Shape := ⟨3, ![512, 6, 512]⟩

abbrev nBuf : Space → Nat
  | .hbm => 36
  | .vmem => 0
  | .smem => 0
  | _ => 0

abbrev bufTy : (tb : Table) → Fin (tcTables nBuf tb) → BufTy
  | .hbm, ⟨0, _⟩ => ⟨S512x193x512, .f32⟩
  | .hbm, ⟨1, _⟩ => ⟨S512x77x512, .f32⟩
  | .hbm, ⟨2, _⟩ => ⟨S1, .f32⟩
  | .hbm, ⟨3, _⟩ => ⟨S512x77, .i32⟩
  | .hbm, ⟨4, _⟩ => ⟨S512x6x77, .i32⟩
  | .hbm, ⟨5, _⟩ => ⟨S512x1x512, .f32⟩
  | .hbm, ⟨6, _⟩ => ⟨S512x512, .f32⟩
  | .hbm, ⟨7, _⟩ => ⟨S512x77, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512x1, .i32⟩
  | .hbm, ⟨29, _⟩ => ⟨S512x2, .i32⟩
  | .hbm, ⟨30, _⟩ => ⟨S512x512, .f32⟩
  | .hbm, ⟨31, _⟩ => ⟨S512x6x77, .f32⟩
  | .hbm, ⟨32, _⟩ => ⟨S512x6x512, .f32⟩
  | .hbm, ⟨33, _⟩ => ⟨S_, .f32⟩
  | .hbm, ⟨34, _⟩ => ⟨S512x6x512, .f32⟩
  | .hbm, ⟨35, _⟩ => ⟨S512x6x512, .f32⟩
  | _, _ => ⟨S512x193x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_c : Ref sig .tc := ⟨.hbm, 8, rfl⟩
abbrev main_call0_c_0 : Ref sig .tc := ⟨.hbm, 9, rfl⟩
abbrev main_call0_v1_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  slices_S512x193x512_S512x1x512_0_0_0 : S512x193x512.Slices ![0, 0, 0] S512x1x512
  shapeCasts_S512x1x512_S512x512 : S512x1x512.ShapeCasts S512x512
  reducesTo_S512x77_S512_d1 : S512x77.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  bcast_S_S512x6x512 : S_.BroadcastsInDim S512x6x512 (![] : Fin 0 → Fin S512x6x512.rank)
  gather_S512x77x512_S512x2_S512x512_1_01_n_n_01_1_11512_wf : GatherDims.WF S512x77x512 S512x2 S512x512 [1] [0, 1] [] [0, 1] [] 1 ![1, 1, 512]
  dot_S512x6x77_S512x77x512_S512x6x512_2_1_1_2_0_0_wf : DotDims.WF S512x6x77 S512x77x512 S512x6x512 [2] [1] [1] [2] [0] [0]

variable [Facts₀]

def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S512x77x512_S512x2_S512x512_1_01_n_n_01_1_11512 : GatherDims S512x77x512 S512x2 S512x512 where
  offsetDims := [1]
  collapsedSliceDims := [0, 1]
  operandBatchingDims := []
  startIndicesBatchingDims := []
  startIndexMap := [0, 1]
  indexVectorDim := 1
  sliceSizes := ![1, 1, 512]
  wf := gather_S512x77x512_S512x2_S512x512_1_01_n_n_01_1_11512_wf
def dot_S512x6x77_S512x77x512_S512x6x512_2_1_1_2_0_0 : DotDims S512x6x77 S512x77x512 S512x6x512 where
  lhsContracting := [2]
  rhsContracting := [1]
  lhsNonContracting := [1]
  rhsNonContracting := [2]
  lhsBatch := [0]
  rhsBatch := [0]
  wf := dot_S512x6x77_S512x77x512_S512x6x512_2_1_1_2_0_0_wf

class Facts : Prop extends Facts₀ where

variable [Facts]
-- ==== Proof.LibFoldSelect.lean ====
/-
  A two-operand reduction whose combining function always returns, in its second component, the second component
  of one of its two arguments (as an arg-max does: it keeps the position of whichever value wins) can only ever
  return a position that was fed to it: the initial position or one of the operand's positions. So any property
  shared by the initial position and by every operand position holds of the result. With the positions an iota
  along an axis of extent `n` and the initial position `0`, the result's position is below `n`.
-/
import Idealize.ShloMosaic.PureOps.Ideal

namespace Cert.Pool.FoldSelect

open Idealize.ShloMosaic

/-- A left fold keeps any property its start has and its step preserves. -/
theorem foldl_keeps {α β : Type} (P : α → Prop) (step : α → β → α) (hstep : ∀ a b, P a → P (step a b)) :
    ∀ (l : List β) (a : α), P a → P (l.foldl step a)
  | [], _, h => h
  | b :: l, a, h => foldl_keeps P step hstep l (step a b) (hstep a b h)

/-- The second component of a two-operand reduce satisfies every property that the initial second value and all
    of the second operand's entries satisfy, when the combining function selects its second component from its
    arguments'. -/
theorem reduce2_snd_of_select {s t u : Shape} {axes : List (Fin s.rank)} {α β : Type}
    (f : α × β → α × β → α × β) (hsel : ∀ a b, (f a b).2 = a.2 ∨ (f a b).2 = b.2)
    (x : s.Idx → α) (y : s.Idx → β) (ix : u.Idx → α) (iy : u.Idx → β) (h : s.ReducesTo axes t) (hu : 0 < u.numel)
    (P : β → Prop) (h0 : P (iy (Shape.Idx.first hu))) (hy : ∀ i, P (y i)) (j : t.Idx) :
    P (Host.reduce2 f x y ix iy h hu j).2 := by
  unfold Host.reduce2
  refine foldl_keeps (fun r : α × β => P r.2) _ (fun a n ha => ?_) _ _ h0
  rcases hsel a (x (s.rowMajor.symm n), y (s.rowMajor.symm n)) with e | e
  · rw [e]; exact ha
  · rw [e]; exact hy _

/-- A select returns one of its two branches. -/
theorem select_eq_or {γ : Type} (c : BitVec 1) (a b : γ) : Scalar.select c a b = a ∨ Scalar.select c a b = b := by
  unfold Scalar.select
  split
  · exact Or.inl rfl
  · exact Or.inr rfl

/-- The word of a natural number below `n ≤ 2^32` reads back below `n`. -/
theorem toNat_ofNat_lt {n k : Nat} (hk : k < n) (hn : n ≤ 2 ^ 32) : (BitVec.ofNat 32 k).toNat < n := by
  rw [BitVec.toNat_ofNat, Nat.mod_eq_of_lt (by omega)]
  exact hk

end Cert.Pool.FoldSelect
-- ==== Proof.KernelHost.lean ====
/-
  What the kernel's program computes on the host before the launch, as functions of the argument arrays:
  the end-of-text position of each caption row (the arg-max of its token ids), the one-hot weight built from it,
  and the first image token of each batch entry.

  The position is always one of the 77 token positions: the arg-max keeps the position of whichever value wins,
  starting from position 0 and offered positions 0 … 76. The weight at (b, t) is therefore "t is row b's position"
  read as the number 1 or 0.
-/
import proofs.«416764_j36077725287058_3_alg».proof.Proof.Gen.KernelIdeal.Frame
import proofs.«416764_j36077725287058_3_alg».proof.Proof.LibFoldSelect
import Idealize.ShloMosaic.Lib.StableHlo.Run
import Idealize.ShloMosaic.Lib.ValueIdx

noncomputable section

namespace Cert.Pool.KernelHost

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- Each caption row's end-of-text position: the position component of the arg-max over the row. -/
def eotOf (caps : Vec F S512x77 .i32) : Vec F S512 .i32 :=
  fun j => (Host.reduce2 reducer_argmax_i32_i32 caps (iotaInDim S512x77 32 1) (constantI S_ 32 2147483648#32)
    (constantI S_ 32 0#32) reducesTo_S512x77_S512_d1 h_S_ j).2

/-- The one-hot weight: 1 at each row's end-of-text position, 0 elsewhere. -/
def weightOf (caps : Vec F S512x77 .i32) : Vec F S512x77 .f32 :=
  uitofp .f32 (cmpi .eq (iotaInDim S512x77 32 1)
    (broadcastInDim S512x77 ![0, 1] bcast_S512x1_S512x77_0_1 (broadcastInDim S512x1 ![0] bcast_S512_S512x1_0 (eotOf caps))))

/-- The first image token of every batch entry, as a [512, 512] array. -/
def clsOf (img : Vec F S512x193x512 .f32) : Vec F S512x512 .f32 :=
  shapeCast S512x512 (extractStridedSlice S512x1x512 ![0, 0, 0] img slices_S512x193x512_S512x1x512_0_0_0)
    shapeCasts_S512x1x512_S512x512

variable (m : (ℓ : Loc nD τ sig) → Buf (Elt F) ℓ)

attribute [local irreducible] Host.reduce2 in
/-- The weight array the launch finds is the one-hot weight of the captions as launched. -/
theorem V_weight (c : Dev nD) :
    (V m c main_v7 : Vec F S512x77 .f32) = weightOf (m ((c : Thread nD τ).loc main_arg3)) := by
  dsimp only [V]
  simp only [hostOps0, hostOps0_1, hostOps0_2, List.flatten_cons, List.flatten_nil, List.append_nil, List.cons_append,
    List.nil_append]
  after_results
  rfl

/-- The image-token array the launch leaves is the first image token of the images as launched. -/
theorem V_cls (c : Dev nD) :
    (V m c main_v1 : Vec F S512x512 .f32) = clsOf (m ((c : Thread nD τ).loc main_arg0)) := by
  dsimp only [V]
  simp only [hostOps0, hostOps0_1, hostOps0_2, List.flatten_cons, List.flatten_nil, List.append_nil, List.cons_append,
    List.nil_append]
  after_results
  rfl

/-- The arg-max's combining function takes its position from one of its two arguments. -/
theorem reducer_selects (a b : BitVec 32 × BitVec 32) :
    (reducer_argmax_i32_i32 a b).2 = a.2 ∨ (reducer_argmax_i32_i32 a b).2 = b.2 := by
  unfold reducer_argmax_i32_i32
  exact FoldSelect.select_eq_or _ _ _

/-- Every row's end-of-text position is one of the 77 token positions. -/
theorem eot_lt (caps : Vec F S512x77 .i32) (j : S512.Idx) : (eotOf caps j).toNat < 77 := by
  unfold eotOf
  refine FoldSelect.reduce2_snd_of_select reducer_argmax_i32_i32 reducer_selects caps _ _ _ _ _
    (fun w : BitVec 32 => w.toNat < 77) ?_ ?_ j
  · show (0#32 : BitVec 32).toNat < 77
    decide
  · intro i
    show (BitVec.ofNat 32 (i 1).val).toNat < 77
    exact FoldSelect.toNat_ofNat_lt (i 1).isLt (by decide)

/-- The weight at `(b, t)`: "position `t` is row `b`'s end-of-text position", as a number. -/
theorem weight_apply (caps : Vec Ideal S512x77 .i32) (b : Fin 512) (t : Fin 77) :
    weightOf caps (ix2 b t) = (((IntOp.cmpi .eq (BitVec.ofNat 32 t.val) (eotOf caps (ix1 b))).toNat : ℝ) : EReal) := by
  unfold weightOf
  show (((IntOp.cmpi .eq (BitVec.ofNat 32 t.val)
    (broadcastInDim S512x77 ![0, 1] bcast_S512x1_S512x77_0_1 (broadcastInDim S512x1 ![0] bcast_S512_S512x1_0 (eotOf caps)) (ix2 b t))).toNat : ℝ) : EReal) = _
  have e : broadcastInDim S512x77 ![0, 1] bcast_S512x1_S512x77_0_1 (broadcastInDim S512x1 ![0] bcast_S512_S512x1_0 (eotOf caps)) (ix2 b t)
      = eotOf caps (ix1 b) := by
    unfold broadcastInDim
    refine congrArg (eotOf caps) (funext fun a => ?_)
    match a with
    | ⟨0, _⟩ => exact Fin.ext rfl
  rw [e]

end Cert.Pool.KernelHost

end
-- ==== Proof.Spec.lean ====
/-
  The three computed results as functions of the argument arrays, index by index, on the extended reals.

  * `pickRow text pos`: for each batch entry `b`, the text row at token position `pos b` (a position word read as a
    natural number; positions are below 77, and the `min` only makes the function total): `out[b, d] = text[b, pos b, d]`.
  * `maskedMean mask text`: for each batch entry and noun chunk, the sum over the 77 token positions of the integer
    mask entry (as a number) times the text entry, divided by 77: `out[b, c, d] = (∑ t, mask[b, c, t] * text[b, t, d]) / 77`.
  * `firstToken img`: the first of the 193 image tokens of each batch entry: `out[b, d] = img[b, 0, d]`.
-/
import Idealize.ShloMosaic.PureOps.Ideal
import Idealize.ShloMosaic.Lib.ValueIdx

open scoped BigOperators

noncomputable section

namespace Cert.Pool.Spec

open Idealize.ShloMosaic Idealize.ShloMosaic.ValueIdx

/-- The text row at each batch entry's position. -/
def pickRow (text : (⟨3, ![512, 77, 512]⟩ : Shape).Idx → EReal) (pos : (⟨1, ![512]⟩ : Shape).Idx → BitVec 32) :
    (⟨2, ![512, 512]⟩ : Shape).Idx → EReal :=
  fun i => text (ix3 (⟨(i 0).val, idx2_lt0 i⟩ : Fin 512) (⟨min (pos (ix1 (⟨(i 0).val, idx2_lt0 i⟩ : Fin 512))).toNat 76, by omega⟩ : Fin 77)
    (⟨(i 1).val, idx2_lt1 i⟩ : Fin 512))

/-- The mask-weighted sum over the token positions, divided by 77 (the float word `0x429A0000`). -/
def maskedMean (mask : (⟨3, ![512, 6, 77]⟩ : Shape).Idx → BitVec 32) (text : (⟨3, ![512, 77, 512]⟩ : Shape).Idx → EReal) :
    (⟨3, ![512, 6, 512]⟩ : Shape).Idx → EReal :=
  fun i => Ideal.div (∑ t : Fin 77, (((mask (ix3 (⟨(i 0).val, (i 0).isLt⟩ : Fin 512) (⟨(i 1).val, (i 1).isLt⟩ : Fin 6) t)).toInt : ℝ) : EReal)
      * text (ix3 (⟨(i 0).val, (i 0).isLt⟩ : Fin 512) t (⟨(i 2).val, (i 2).isLt⟩ : Fin 512)))
    (Ideal.ofBits .f32 0x429A0000#32)

/-- The first image token of each batch entry. -/
def firstToken (img : (⟨3, ![512, 193, 512]⟩ : Shape).Idx → EReal) : (⟨2, ![512, 512]⟩ : Shape).Idx → EReal :=
  fun i => img (ix3 (⟨(i 0).val, idx2_lt0 i⟩ : Fin 512) (0 : Fin 193) (⟨(i 1).val, idx2_lt1 i⟩ : Fin 512))

/-- `pickRow` at `(b, d)`, for a position known to be a token position. -/
theorem pickRow_apply (text : (⟨3, ![512, 77, 512]⟩ : Shape).Idx → EReal) (pos : (⟨1, ![512]⟩ : Shape).Idx → BitVec 32)
    (b d : Fin 512) (h : (pos (ix1 b)).toNat < 77) :
    pickRow text pos (ix2 b d) = text (ix3 b ⟨(pos (ix1 b)).toNat, h⟩ d) := by
  unfold pickRow
  refine congrArg text (funext fun a => ?_)
  match a with
  | ⟨0, _⟩ => rfl
  | ⟨1, _⟩ => exact Fin.ext (Nat.min_eq_left (by show (pos (ix1 b)).toNat ≤ 76; omega))
  | ⟨2, _⟩ => rfl

/-- `maskedMean` at `(b, c, d)`. -/
theorem maskedMean_apply (mask : (⟨3, ![512, 6, 77]⟩ : Shape).Idx → BitVec 32) (text : (⟨3, ![512, 77, 512]⟩ : Shape).Idx → EReal)
    (b : Fin 512) (c : Fin 6) (d : Fin 512) :
    maskedMean mask text (ix3 b c d)
      = Ideal.div (∑ t : Fin 77, (((mask (ix3 b c t)).toInt : ℝ) : EReal) * text (ix3 b t d)) (Ideal.ofBits .f32 0x429A0000#32) := rfl

/-- `firstToken` at `(b, d)`. -/
theorem firstToken_apply (img : (⟨3, ![512, 193, 512]⟩ : Shape).Idx → EReal) (b d : Fin 512) :
    firstToken img (ix2 b d) = img (ix3 b (0 : Fin 193) d) := rfl

end Cert.Pool.Spec

end
-- ==== Proof.LibOneHot.lean ====
/-
  Summing a row against a one-hot weight picks one entry.

  The weight at position `t` is the one-bit word "position `t` equals the selected position `e`" read as a number
  (so `1` at `t = e` and `0` elsewhere). On the extended reals `0 * x = 0` for every `x` and `1 * x = x`, and a
  finite sum with one non-zero term is that term: the weighted sum over the `n` positions is the entry at `e`,
  provided `e` is one of the positions.
-/
import Idealize.ShloMosaic.PureOps.Ideal
import Mathlib.Algebra.BigOperators.Group.Finset.Basic
import Mathlib.Data.EReal.Basic

open scoped BigOperators

namespace Cert.Pool.OneHot

open Idealize.ShloMosaic

/-- "Position `t` is the selected one", as a number: `1` if the words agree and `0` if not. -/
theorem weight_eq {n : Nat} (hn : n ≤ 2 ^ 32) (e : BitVec 32) (t : Fin n) :
    (((IntOp.cmpi .eq (BitVec.ofNat 32 t.val) e).toNat : ℝ) : EReal) = if t.val = e.toNat then 1 else 0 := by
  have ht : t.val < 2 ^ 32 := lt_of_lt_of_le t.isLt hn
  have hiff : (BitVec.ofNat 32 t.val = e) ↔ t.val = e.toNat := by
    constructor
    · intro h; rw [← h, BitVec.toNat_ofNat, Nat.mod_eq_of_lt ht]
    · intro h; apply BitVec.eq_of_toNat_eq; rw [BitVec.toNat_ofNat, Nat.mod_eq_of_lt ht, h]
  unfold IntOp.cmpi
  by_cases h : t.val = e.toNat
  · have hb : (BitVec.ofNat 32 t.val == e) = true := by rw [beq_iff_eq]; exact hiff.mpr h
    simp only [hb, if_pos h]
    simp
  · have hb : (BitVec.ofNat 32 t.val == e) = false := by
      rw [beq_eq_false_iff_ne]; exact fun h' => h (hiff.mp h')
    simp only [hb, if_neg h]
    simp

/-- The one-hot weighted sum of a row is the row's entry at the selected position. -/
theorem sum_weight_mul {n : Nat} (hn : n ≤ 2 ^ 32) (e : BitVec 32) (he : e.toNat < n) (x : Fin n → EReal) :
    ∑ t : Fin n, (((IntOp.cmpi .eq (BitVec.ofNat 32 t.val) e).toNat : ℝ) : EReal) * x t = x ⟨e.toNat, he⟩ := by
  rw [Finset.sum_eq_single (⟨e.toNat, he⟩ : Fin n)]
  · rw [weight_eq hn e ⟨e.toNat, he⟩, if_pos rfl, one_mul]
  · intro t _ hne
    rw [weight_eq hn e t, if_neg (fun h => hne (Fin.ext h)), zero_mul]
  · intro h; exact absurd (Finset.mem_univ _) h

end Cert.Pool.OneHot
-- ==== Proof.LibContraction.lean ====
/-
  A batched matrix product read at an index is a plain finite sum.

  For a left operand `L : [B, C, K]` and a right operand `R : [B, K, D]`, contracted over the axis of extent `K`
  with the leading axis a batch axis, the contraction's own index set has one axis of extent `K`; identifying it
  with `Fin K`, the sum of products at result index `(b, c, d)` is `∑ t, L[b, c, t] * R[b, t, d]`.
-/
import Idealize.ShloMosaic.PureOps.Ideal
import Idealize.ShloMosaic.Lib.ValueIdx

open scoped BigOperators

noncomputable section

namespace Cert.Pool.Contraction

open Idealize.ShloMosaic Idealize.ShloMosaic.ValueIdx

/-- The dimension numbers of `bct,btd->bcd`: batch axis 0 on both sides, the left operand's axis 2 contracted with
    the right operand's axis 1. -/
abbrev bmm (B C K D : Nat) (wf : DotDims.WF ⟨3, ![B, C, K]⟩ ⟨3, ![B, K, D]⟩ ⟨3, ![B, C, D]⟩ [2] [1] [1] [2] [0] [0]) :
    DotDims ⟨3, ![B, C, K]⟩ ⟨3, ![B, K, D]⟩ ⟨3, ![B, C, D]⟩ where
  lhsContracting := [2]
  rhsContracting := [1]
  lhsNonContracting := [1]
  rhsNonContracting := [2]
  lhsBatch := [0]
  rhsBatch := [0]
  wf := wf

variable {B C K D : Nat} (wf : DotDims.WF ⟨3, ![B, C, K]⟩ ⟨3, ![B, K, D]⟩ ⟨3, ![B, C, D]⟩ [2] [1] [1] [2] [0] [0])

theorem contr_rank : (bmm B C K D wf).contr.rank = 1 := rfl
theorem contr_size : (bmm B C K D wf).contr.size ⟨0, Nat.one_pos⟩ = K := rfl

/-- The left operand is read at `(b, c, t)` … -/
theorem lhsIdx_eq (b : Fin B) (c : Fin C) (d : Fin D) (t : Fin K) :
    (bmm B C K D wf).lhsIdx (ix3 b c d) ((contrEquiv1 (bmm B C K D wf) K (contr_rank wf) (contr_size wf)).symm t) = ix3 b c t := by
  funext a
  match a with
  | ⟨0, _⟩ => exact Fin.ext rfl
  | ⟨1, _⟩ => exact Fin.ext rfl
  | ⟨2, _⟩ => exact Fin.ext (contrEquiv1_symm_val (bmm B C K D wf) K (contr_rank wf) (contr_size wf) t)

/-- … and the right operand at `(b, t, d)`. -/
theorem rhsIdx_eq (b : Fin B) (c : Fin C) (d : Fin D) (t : Fin K) :
    (bmm B C K D wf).rhsIdx (ix3 b c d) ((contrEquiv1 (bmm B C K D wf) K (contr_rank wf) (contr_size wf)).symm t) = ix3 b t d := by
  funext a
  match a with
  | ⟨0, _⟩ => exact Fin.ext rfl
  | ⟨1, _⟩ => exact Fin.ext (contrEquiv1_symm_val (bmm B C K D wf) K (contr_rank wf) (contr_size wf) t)
  | ⟨2, _⟩ => exact Fin.ext rfl

/-- The contraction's sum, re-indexed by the contracted coordinate. -/
theorem sum_eq {M : Type} [AddCommMonoid M] (f : (⟨3, ![B, C, K]⟩ : Shape).Idx → (⟨3, ![B, K, D]⟩ : Shape).Idx → M)
    (b : Fin B) (c : Fin C) (d : Fin D) :
    ∑ k : (bmm B C K D wf).contr.Idx, f ((bmm B C K D wf).lhsIdx (ix3 b c d) k) ((bmm B C K D wf).rhsIdx (ix3 b c d) k)
      = ∑ t : Fin K, f (ix3 b c t) (ix3 b t d) := by
  rw [← Equiv.sum_comp (contrEquiv1 (bmm B C K D wf) K (contr_rank wf) (contr_size wf)).symm]
  refine Finset.sum_congr rfl fun t _ => ?_
  rw [lhsIdx_eq, rhsIdx_eq]

end Cert.Pool.Contraction

end
-- ==== Proof.Payloads.lean ====
/-
  The kernel body's two computed values, read at an index of the block they are stored to.

  The row sums: the body multiplies each text entry `x[b, t, l]` of a 128-column chunk by the weight `w[b, t]` of
  its token position (the weight block re-laid as `[b, t, 1]` and broadcast along the columns) and sums over the 77
  positions, so at `(b, l)` the value is `∑ t, w[b, t] * x[b, t, l]`. The four column chunks use the same
  operations.

  The masked mean: the integer mask, read as numbers, is contracted with the text block over the token axis, batch
  entry by batch entry, into a zero accumulator, and divided by 77: at `(b, c, d)` the value is
  `(∑ t, mask[b, c, t] * x[b, t, d]) / 77`. A change of float format is the identity on the extended reals.
-/
import proofs.«416764_j36077725287058_3_alg».proof.Proof.Gen.KernelIdeal.Skeleton
import proofs.«416764_j36077725287058_3_alg».proof.Proof.LibContraction
import Idealize.ShloMosaic.PureOps.Ideal.Laws
import Idealize.ShloMosaic.Lib.ValueIdx
import Idealize.ShloMosaic.Lib.Pipeline.Value

open scoped BigOperators

noncomputable section

namespace Cert.Pool.Payloads

open Cert.KernelIdeal Cert.KernelIdeal.Gen Idealize.ShloMosaic Idealize.ShloMosaic.ValueIdx

/-- A chunk's row sums at `(b, l)`. -/
theorem rowsum_apply (v0 : Vec Ideal S64x77 .f32) (v2 : Vec Ideal S64x77x128 .f32) (b : Fin 64) (l : Fin 128) :
    k0_pay3 v0 v2 (ix2 b l) = ∑ t : Fin 77, v0 (ix2 b t) * v2 (ix3 b t l) := by
  -- the weight column as stored: the same-shape re-lay is the identity
  have e1 : ∀ t : Fin 77, k0_pay2 v0 (ix2 b t) = v0 (ix2 b t) := fun t => by
    unfold k0_pay2
    rw [shapeCast_self]
  -- re-laid as `[64, 77, 1]`: position `(b, t, 0)` has the row-major position of `(b, t)`
  have e2 : ∀ t : Fin 77,
      shapeCast S64x77x1 (k0_pay2 v0) shapeCasts_S64x77_S64x77x1 (ix3 b t (0 : Fin 1)) = v0 (ix2 b t) := fun t => by
    rw [shapeCast_apply (k0_pay2 v0) shapeCasts_S64x77_S64x77x1 (ix3 b t (0 : Fin 1)) (ix2 b t) (by
      rw [Shape.rowMajor_val_two, Shape.rowMajor_val_three]
      show b.val * 77 + t.val = (b.val * 77 + t.val) * 1 + 0
      omega), e1]
  -- broadcast along the columns: every column `l` reads the unit axis at `0`
  have e3 : ∀ t : Fin 77,
      broadcastTo S64x77x128 (shapeCast S64x77x1 (k0_pay2 v0) shapeCasts_S64x77_S64x77x1)
        broadcasts_S64x77x1_S64x77x128 (ix3 b t l) = v0 (ix2 b t) := fun t => by
    rw [broadcastTo_apply _ broadcasts_S64x77x1_S64x77x128 (ix3 b t l) (ix3 b t (0 : Fin 1)) (fun a => by
      match a with
      | ⟨0, _⟩ => rfl
      | ⟨1, _⟩ => rfl
      | ⟨2, _⟩ => rfl), e2]
  -- the source index over `(b, l)` with `t` inserted on the summed axis is `(b, t, l)`
  have hl : ∀ t : Fin (S64x77x128.size 1), reduces_S64x77x128_S64x128.lift (ix2 b l) t = ix3 b t l := fun t => by
    funext a
    apply Fin.ext
    match a with
    | ⟨0, _⟩ => rfl
    | ⟨1, _⟩ => rfl
    | ⟨2, _⟩ => rfl
  unfold k0_pay3
  refine (Ideal.multiReduction_add_single _ _ reduces_S64x77x128_S64x128 _ _ (ix2 b l)).trans ?_
  refine Finset.sum_congr rfl fun t _ => ?_
  refine (congrArg _ (hl t)).trans ?_
  exact congrArg (· * v2 (ix3 b t l)) (e3 t)

/-- The other three chunks' values are the same function of their loads. -/
theorem pay4_eq (v0 : Vec Ideal S64x77 .f32) (v : Vec Ideal S64x77x128 .f32) : k0_pay4 v0 v = k0_pay3 v0 v := rfl
theorem pay5_eq (v0 : Vec Ideal S64x77 .f32) (v : Vec Ideal S64x77x128 .f32) : k0_pay5 v0 v = k0_pay3 v0 v := rfl
theorem pay6_eq (v0 : Vec Ideal S64x77 .f32) (v : Vec Ideal S64x77x128 .f32) : k0_pay6 v0 v = k0_pay3 v0 v := rfl

/-- The masked mean at `(b, c, d)`. -/
theorem mean_apply (x0 : Vec Ideal S64x77x512 .f32) (x2 : Vec Ideal S64x6x77 .i32) (b : Fin 64) (c : Fin 6) (d : Fin 512) :
    k0_pay1 x0 x2 (ix3 b c d)
      = Ideal.div (∑ t : Fin 77, (((x2 (ix3 b c t)).toInt : ℝ) : EReal) * x0 (ix3 b t d)) (Ideal.ofBits .f32 0x429A0000#32) := by
  unfold k0_pay1
  -- the quotient at an index divides the contraction's value there by the splat constant
  show Ideal.div (matmul (F := Ideal) dot_S64x6x77_S64x77x512_S64x6x512_2_1_1_2_0_0 none (sitofp .bf16 x2)
      (truncf .bf16 x0 bitsLt_bf16_f32) (constant S64x6x512 .f32 0x00000000#32) (ix3 b c d))
    (Ideal.ofBits .f32 0x429A0000#32) = _
  congr 1
  -- into the zero accumulator the contraction is the sum of products over its own index set …
  refine (Ideal.matmul_constant_zero_apply dot_S64x6x77_S64x77x512_S64x6x512_2_1_1_2_0_0 none
    (sitofp (F := Ideal) .bf16 x2) (truncf (F := Ideal) .bf16 x0 bitsLt_bf16_f32) (ix3 b c d)).trans ?_
  -- … which, re-indexed by the contracted coordinate, runs over the 77 token positions; the mask is read as an integer
  -- and the change of float format is the identity on extended reals
  exact Cert.Pool.Contraction.sum_eq dot_S64x6x77_S64x77x512_S64x6x512_2_1_1_2_0_0_wf
    (fun (i : S64x6x77.Idx) (k : S64x77x512.Idx) => (((x2 i).toInt : ℝ) : EReal) * x0 k) b c d

end Cert.Pool.Payloads

end
-- ==== Proof.KernelBlocks.lean ====
/-
  From what each grid point writes back to the two whole output arrays.

  Grid point `g` (of 8) handles batch rows 64 g … 64 g + 63: every window's block index is (g, 0, …), so a block
  coordinate `y` sits at array coordinate 64 g + y on the batch axis and at `y` on every other axis.

  The row-sum output: the body stores four 128-column pieces, piece `o ∈ {0, 128, 256, 384}` holding at (b, l) the
  weighted sum over token positions of the text block at column o + l; all four are restrictions of ONE function
  of the block index, (b, d) ↦ ∑ t, w[b, t] * x[b, t, d], so the block after the body is that function, and read
  through the block's position it is the whole-array row sum restricted to the block. The blocks tile the array
  (row r belongs to point r / 64), so the array ends as the row sum; with the one-hot weight this is the text row at
  each batch entry's end-of-text position. The masked-mean output is stored whole by one store and is treated the
  same way with one piece.
-/
import proofs.«416764_j36077725287058_3_alg».proof.Proof.Gen.KernelIdeal.Value
import proofs.«416764_j36077725287058_3_alg».proof.Proof.KernelHost
import proofs.«416764_j36077725287058_3_alg».proof.Proof.Spec
import proofs.«416764_j36077725287058_3_alg».proof.Proof.LibOneHot
import proofs.«416764_j36077725287058_3_alg».proof.Proof.Payloads
import Idealize.ShloMosaic.Lib.Pipeline.Value
import Idealize.ShloMosaic.Lib.ValueIdx

set_option maxRecDepth 16384

open scoped BigOperators

noncomputable section

namespace Cert.Pool.KernelBlocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.Pool.KernelHost Cert.Pool.Spec Cert.Pool.Payloads

/-! ## One block -/

theorem hz2 : (![0, 0] : Fin 2 → Nat) = fun _ => 0 := funext fun a => by fin_cases a <;> rfl
theorem hz3 : (![0, 0, 0] : Fin 3 → Nat) = fun _ => 0 := funext fun a => by fin_cases a <;> rfl

/-- The weighted row sums of a text block: at (b, d) the sum over token positions of weight times text entry. -/
def blockRowSum (x0 : Vec Ideal S64x77x512 .f32) (x1 : Vec Ideal S64x77 .f32) : S64x512.Idx → EReal :=
  fun y => ∑ t : Fin 77, x1 (ix2 (⟨(y 0).val, (y 0).isLt⟩ : Fin 64) t)
    * x0 (ix3 (⟨(y 0).val, (y 0).isLt⟩ : Fin 64) t (⟨(y 1).val, (y 1).isLt⟩ : Fin 512))

/-- The piece stored at column offset `o` holds, at its local index, the block row sum at the index under it. -/
theorem piece_eq (x0 : Vec Ideal S64x77x512 .f32) (x1 : Vec Ideal S64x77 .f32) (o : Nat)
    (inbI : ∀ a, (![0, 0, o] : Fin 3 → Nat) a + S64x77x128.size a ≤ S64x77x512.size a)
    (inbO : ∀ a, (![0, o] : Fin 2 → Nat) a + S64x128.size a ≤ S64x512.size a) (x : S64x128.Idx) :
    k0_pay3 (View.ld x1 r0_0) (View.ld x0 (Rect.unit (s := S64x77x512) ![0, 0, o] S64x77x128.size inbI)) x
      = blockRowSum x0 x1 ((Rect.unit (s := S64x512) ![0, o] S64x128.size inbO).emb x) := by
  obtain ⟨b, l, rfl⟩ : ∃ (b : Fin 64) (l : Fin 128), x = ix2 b l := ⟨x 0, x 1, eq_ix2 x⟩
  have ho : o + l.val < 512 := by
    have := inbO 1
    have h1 : (![0, o] : Fin 2 → Nat) 1 = o := rfl
    have h2 : S64x128.size 1 = 128 := rfl
    have h3 : S64x512.size 1 = 512 := rfl
    have := l.isLt
    omega
  rw [rowsum_apply, View.ld_unit_zero (S := S64x77) hz2]
  unfold blockRowSum
  refine Finset.sum_congr rfl fun t _ => ?_
  have e1 : View.ld x0 (Rect.unit (s := S64x77x512) ![0, 0, o] S64x77x128.size inbI) (ix3 b t l) = x0 (ix3 b t ⟨o + l.val, ho⟩) := by
    show x0 _ = x0 _
    refine congrArg x0 (funext fun a => ?_)
    match a with
    | ⟨0, _⟩ => apply Fin.ext; show 0 + 1 * b.val = b.val; omega
    | ⟨1, _⟩ => apply Fin.ext; show 0 + 1 * t.val = t.val; omega
    | ⟨2, _⟩ => apply Fin.ext; show o + 1 * l.val = o + l.val; omega
  rw [e1]
  have e2 : ∀ (hb : ((Rect.unit (s := S64x512) ![0, o] S64x128.size inbO).emb (ix2 b l) 0).val < 64)
      (hd : ((Rect.unit (s := S64x512) ![0, o] S64x128.size inbO).emb (ix2 b l) 1).val < 512),
      (⟨((Rect.unit (s := S64x512) ![0, o] S64x128.size inbO).emb (ix2 b l) 0).val, hb⟩ : Fin 64) = b
      ∧ (⟨((Rect.unit (s := S64x512) ![0, o] S64x128.size inbO).emb (ix2 b l) 1).val, hd⟩ : Fin 512) = ⟨o + l.val, ho⟩ := by
    intro hb hd
    constructor
    · apply Fin.ext; show 0 + 1 * b.val = b.val; omega
    · apply Fin.ext; show o + 1 * l.val = o + l.val; omega
  obtain ⟨eb, ed⟩ := e2 (Fin.isLt _) (Fin.isLt _)
  rw [eb, ed]

/-- The row-sum block after the body, from the input blocks: its four pieces are restrictions of one function. -/
theorem out3_eq (x0 : Vec Ideal S64x77x512 .f32) (x1 : Vec Ideal S64x77 .f32) (x2 : Vec Ideal S64x6x77 .i32) :
    out0_3 x0 x1 x2 = blockRowSum x0 x1 := by
  unfold out0_3
  funext y
  refine View.canon_apply_of_pieces (Val := Elt Ideal) (S := S64x512) (e := .f32) (blockRowSum x0 x1) _ ?_ y (cover0_3 _ _ _ _ y)
  intro p hp x
  simp only [List.mem_cons, List.mem_nil_iff, or_false] at hp
  rcases hp with rfl | rfl | rfl | rfl
  · rw [pay6_eq]; exact piece_eq x0 x1 384 inb_S64x77x512_S64x77x128_0_0_384 inb_S64x512_S64x128_0_384 x
  · rw [pay5_eq]; exact piece_eq x0 x1 256 inb_S64x77x512_S64x77x128_0_0_256 inb_S64x512_S64x128_0_256 x
  · rw [pay4_eq]; exact piece_eq x0 x1 128 inb_S64x77x512_S64x77x128_0_0_128 inb_S64x512_S64x128_0_128 x
  · exact piece_eq x0 x1 0 inb_S64x77x512_S64x77x128_0_0_0 inb_S64x512_S64x128_0_0 x

/-! ## The index maps, decided over the eight grid points -/

/-- Every window's block index is (g, 0, …) for one and the same `g ≤ 7`. -/
theorem idx_facts : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = win0_3.index t (0 : Fin 2) ∧ win0_1.index t (1 : Fin 2) = 0
    ∧ win0_2.index t (0 : Fin 3) = win0_3.index t (0 : Fin 2) ∧ win0_2.index t (1 : Fin 3) = 0 ∧ win0_2.index t (2 : Fin 3) = 0
    ∧ win0_3.index t (1 : Fin 2) = 0
    ∧ win0_4.index t (0 : Fin 3) = win0_3.index t (0 : Fin 2) ∧ win0_4.index t (1 : Fin 3) = 0 ∧ win0_4.index t (2 : Fin 3) = 0
    ∧ win0_3.index t (0 : Fin 2) ≤ 7 :=
  (by decide +kernel : ∀ t : Fin grid0.N, _)

/-- Every `g ≤ 7` is some point's. -/
theorem idx_onto : ∀ q : Fin 8, ∃ t : Fin cfg0.N, win0_3.index t (0 : Fin 2) = q.val :=
  (by decide +kernel : ∀ q : Fin 8, ∃ t : Fin grid0.N, win0_3.index t (0 : Fin 2) = q.val)

variable (m : (ℓ : Loc nD τ sig) → Buf (Elt Ideal) ℓ) (ρ : Dev nD → PrngReg)

/-- The text array, the weight array and the mask array as the launch finds them, at their literal types. -/
abbrev textArr (c : Dev nD) : S512x77x512.Idx → EReal := V m c main_arg1
abbrev wArr (c : Dev nD) : S512x77.Idx → EReal := V m c main_v7
abbrev maskArr (c : Dev nD) : S512x6x77.Idx → BitVec 32 := V m c main_arg4

/-! ## The row-sum output (window 3) -/

/-- The whole-array weighted row sum. -/
def rowSum (w : S512x77.Idx → EReal) (x : S512x77x512.Idx → EReal) : S512x512.Idx → EReal :=
  fun i => ∑ t : Fin 77, w (ix2 (⟨(i 0).val, (i 0).isLt⟩ : Fin 512) t)
    * x (ix3 (⟨(i 0).val, (i 0).isLt⟩ : Fin 512) t (⟨(i 1).val, (i 1).isLt⟩ : Fin 512))

/-- What point `t` writes back to the row-sum array is block `t` of the whole-array row sum. -/
theorem flushed3_eq (c : Dev nD) (t : Fin cfg0.N) :
    (dats m 0 c).flushed 3 t = ((cfg0.win 3).blk t).view.read (Elt Ideal) (rowSum (wArr m c) (textArr m c)) := by
  rw [flushed3]
  refine (congrArg ((cfg0.win 3).cut (grid0.coords t)) (out3_eq (iblk m c 0 t) (iblk m c 1 t) (iblk m c 2 t))).trans ?_
  funext j
  show blockRowSum (iblk m c 0 t) (iblk m c 1 t) j = rowSum (wArr m c) (textArr m c) (((cfg0.win 3).blk t).view.emb j)
  · obtain ⟨e0, e1, e2, e3, e4, -, -, -, e8, -, -, -, e12⟩ := idx_facts t
    unfold blockRowSum rowSum
    refine Finset.sum_congr rfl fun s _ => ?_
    have hw : iblk m c 1 t (ix2 (⟨(j 0).val, (j 0).isLt⟩ : Fin 64) s)
        = wArr m c (ix2 (⟨((((cfg0.win 3).blk t).view.emb j) 0).val, Fin.isLt _⟩ : Fin 512) s) := by
      show V m c main_v7 (((cfg0.win 1).blk t).view.emb _) = V m c main_v7 _
      refine congrArg (V m c main_v7) (funext fun a => ?_)
      apply Fin.ext
      match a with
      | ⟨0, _⟩ => show win0_1.index t (0 : Fin 2) * 64 + 1 * (j 0).val = win0_3.index t (0 : Fin 2) * 64 + 1 * (j 0).val; omega
      | ⟨1, _⟩ => show win0_1.index t (1 : Fin 2) * 77 + 1 * s.val = s.val; omega
    have hx : iblk m c 0 t (ix3 (⟨(j 0).val, (j 0).isLt⟩ : Fin 64) s (⟨(j 1).val, (j 1).isLt⟩ : Fin 512))
        = textArr m c (ix3 (⟨((((cfg0.win 3).blk t).view.emb j) 0).val, Fin.isLt _⟩ : Fin 512) s
            (⟨((((cfg0.win 3).blk t).view.emb j) 1).val, Fin.isLt _⟩ : Fin 512)) := by
      show V m c main_arg1 (((cfg0.win 0).blk t).view.emb _) = V m c main_arg1 _
      refine congrArg (V m c main_arg1) (funext fun a => ?_)
      apply Fin.ext
      match a with
      | ⟨0, _⟩ => show win0_0.index t (0 : Fin 3) * 64 + 1 * (j 0).val = win0_3.index t (0 : Fin 2) * 64 + 1 * (j 0).val; omega
      | ⟨1, _⟩ => show win0_0.index t (1 : Fin 3) * 77 + 1 * s.val = s.val; omega
      | ⟨2, _⟩ => show win0_0.index t (2 : Fin 3) * 512 + 1 * (j 1).val = win0_3.index t (1 : Fin 2) * 512 + 1 * (j 1).val; omega
    rw [hw, hx]

/-- An index of the row-sum array is in point `t`'s block iff each coordinate is in the block's range. -/
theorem mem_blk3 (t : Fin cfg0.N) (i : S512x512.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v8_0).slice (win0_3.rect t)).set ↔ _
  rw [View.set_slice_whole, Rect.mem_set_unit]
  exact Iff.rfl

/-- The blocks tile the array: row `r` belongs to the point with `g = r / 64`. -/
theorem cover3 (i : S512x512.Idx) : ∃ t : Fin cfg0.N, (cfg0.win 3).flush t = true ∧ i ∈ ((cfg0.win 3).blk t).view.set := by
  have hi0 : (i 0).val < 512 := (i 0).isLt
  have hi1 : (i 1).val < 512 := (i 1).isLt
  obtain ⟨t, ht⟩ := idx_onto ⟨(i 0).val / 64, by omega⟩
  have ht' : win0_3.index t (0 : Fin 2) = (i 0).val / 64 := ht
  obtain ⟨-, -, -, -, -, -, -, -, e8, -, -, -, -⟩ := idx_facts t
  refine ⟨t, flush0_3 t, ?_⟩
  rw [mem_blk3]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 512 ≤ (i 1).val ∧ (i 1).val < win0_3.index t (1 : Fin 2) * 512 + 512; omega

/-- The row-sum array after the run is the whole-array row sum of the weight and text arrays as launched. -/
theorem final3 (c : Dev nD) : (dats m 0 c).arrAt 3 cfg0.N = rowSum (wArr m c) (textArr m c) :=
  (dats m 0 c).arrAt_eq_of_cover 3 (rowSum (wArr m c) (textArr m c)) (fun t _ => flushed3_eq m c t) cover3

/-- With the one-hot weight the row sum is the text row at each batch entry's end-of-text position. -/
theorem rowSum_weight (caps : Vec Ideal S512x77 .i32) (x : S512x77x512.Idx → EReal) :
    rowSum (weightOf caps) x = pickRow x (eotOf caps) := by
  funext i
  obtain ⟨b, d, rfl⟩ : ∃ (b : Fin 512) (d : Fin 512), i = ix2 b d := ⟨i 0, i 1, eq_ix2 i⟩
  rw [pickRow_apply x (eotOf caps) b d (eot_lt caps (ix1 b))]
  show ∑ t : Fin 77, weightOf caps (ix2 b t) * x (ix3 b t d) = _
  simp only [weight_apply]
  exact OneHot.sum_weight_mul (n := 77) (by decide) (eotOf caps (ix1 b)) (eot_lt caps (ix1 b)) (fun t => x (ix3 b t d))

/-! ## The masked-mean output (window 4) -/

/-- The masked-mean block after the body, from the input blocks. -/
theorem out4_eq (x0 : Vec Ideal S64x77x512 .f32) (x1 : Vec Ideal S64x77 .f32) (x2 : Vec Ideal S64x6x77 .i32) :
    out0_4 x0 x1 x2 = k0_pay1 x0 x2 := by
  unfold out0_4
  rw [View.canon_unit_zero hz3]
  simp only [View.ld_unit_zero (S := S64x77x512) hz3, View.ld_unit_zero (S := S64x6x77) hz3]

/-- What point `t` writes back to the masked-mean array is block `t` of the whole-array masked mean. -/
theorem flushed4_eq (c : Dev nD) (t : Fin cfg0.N) :
    (dats m 0 c).flushed 4 t = ((cfg0.win 4).blk t).view.read (Elt Ideal) (maskedMean (maskArr m c) (textArr m c)) := by
  rw [flushed4]
  refine (congrArg ((cfg0.win 4).cut (grid0.coords t)) (out4_eq (iblk m c 0 t) (iblk m c 1 t) (iblk m c 2 t))).trans ?_
  funext j
  obtain ⟨b, q, d, rfl⟩ : ∃ (b : Fin 64) (q : Fin 6) (d : Fin 512), j = ix3 b q d := ⟨j 0, j 1, j 2, eq_ix3 j⟩
  show k0_pay1 (iblk m c 0 t) (iblk m c 2 t) (ix3 b q d) = maskedMean (maskArr m c) (textArr m c) (((cfg0.win 4).blk t).view.emb (ix3 b q d))
  rw [mean_apply]
  obtain ⟨e0, e1, e2, -, -, e5, e6, e7, -, e9, e10, e11, e12⟩ := idx_facts t
  unfold maskedMean
  refine congrArg (fun s => Ideal.div s (Ideal.ofBits .f32 0x429A0000#32)) (Finset.sum_congr rfl fun s _ => ?_)
  have hm : iblk m c 2 t (ix3 b q s)
      = maskArr m c (ix3 (⟨((((cfg0.win 4).blk t).view.emb (ix3 b q d)) 0).val, Fin.isLt _⟩ : Fin 512)
          (⟨((((cfg0.win 4).blk t).view.emb (ix3 b q d)) 1).val, Fin.isLt _⟩ : Fin 6) s) := by
    show V m c main_arg4 (((cfg0.win 2).blk t).view.emb _) = V m c main_arg4 _
    refine congrArg (V m c main_arg4) (funext fun a => ?_)
    apply Fin.ext
    match a with
    | ⟨0, _⟩ => show win0_2.index t (0 : Fin 3) * 64 + 1 * b.val = win0_4.index t (0 : Fin 3) * 64 + 1 * b.val; omega
    | ⟨1, _⟩ => show win0_2.index t (1 : Fin 3) * 6 + 1 * q.val = win0_4.index t (1 : Fin 3) * 6 + 1 * q.val; omega
    | ⟨2, _⟩ => show win0_2.index t (2 : Fin 3) * 77 + 1 * s.val = s.val; omega
  have hx : iblk m c 0 t (ix3 b s d)
      = textArr m c (ix3 (⟨((((cfg0.win 4).blk t).view.emb (ix3 b q d)) 0).val, Fin.isLt _⟩ : Fin 512) s
          (⟨((((cfg0.win 4).blk t).view.emb (ix3 b q d)) 2).val, Fin.isLt _⟩ : Fin 512)) := by
    show V m c main_arg1 (((cfg0.win 0).blk t).view.emb _) = V m c main_arg1 _
    refine congrArg (V m c main_arg1) (funext fun a => ?_)
    apply Fin.ext
    match a with
    | ⟨0, _⟩ => show win0_0.index t (0 : Fin 3) * 64 + 1 * b.val = win0_4.index t (0 : Fin 3) * 64 + 1 * b.val; omega
    | ⟨1, _⟩ => show win0_0.index t (1 : Fin 3) * 77 + 1 * s.val = s.val; omega
    | ⟨2, _⟩ => show win0_0.index t (2 : Fin 3) * 512 + 1 * d.val = win0_4.index t (2 : Fin 3) * 512 + 1 * d.val; omega
  rw [hm, hx]

/-- An index of the masked-mean array is in point `t`'s block iff each coordinate is in the block's range. -/
theorem mem_blk4 (t : Fin cfg0.N) (i : S512x6x512.Idx) :
    i ∈ ((cfg0.win 4).blk t).view.set ↔ ∀ a : Fin 3, win0_4.index t a * S64x6x512.size a ≤ (i a).val ∧ (i a).val < win0_4.index t a * S64x6x512.size a + S64x6x512.size a := by
  show i ∈ ((View.whole main_v8_1).slice (win0_4.rect t)).set ↔ _
  rw [View.set_slice_whole, Rect.mem_set_unit]
  exact Iff.rfl

/-- These blocks tile their array too. -/
theorem cover4 (i : S512x6x512.Idx) : ∃ t : Fin cfg0.N, (cfg0.win 4).flush t = true ∧ i ∈ ((cfg0.win 4).blk t).view.set := by
  have hi0 : (i 0).val < 512 := (i 0).isLt
  have hi1 : (i 1).val < 6 := (i 1).isLt
  have hi2 : (i 2).val < 512 := (i 2).isLt
  obtain ⟨t, ht⟩ := idx_onto ⟨(i 0).val / 64, by omega⟩
  have ht' : win0_3.index t (0 : Fin 2) = (i 0).val / 64 := ht
  obtain ⟨-, -, -, -, -, -, -, -, -, e9, e10, e11, -⟩ := idx_facts t
  refine ⟨t, flush0_4 t, ?_⟩
  rw [mem_blk4]
  intro a
  match a with
  | ⟨0, _⟩ => show win0_4.index t (0 : Fin 3) * 64 ≤ (i 0).val ∧ (i 0).val < win0_4.index t (0 : Fin 3) * 64 + 64; omega
  | ⟨1, _⟩ => show win0_4.index t (1 : Fin 3) * 6 ≤ (i 1).val ∧ (i 1).val < win0_4.index t (1 : Fin 3) * 6 + 6; omega
  | ⟨2, _⟩ => show win0_4.index t (2 : Fin 3) * 512 ≤ (i 2).val ∧ (i 2).val < win0_4.index t (2 : Fin 3) * 512 + 512; omega

/-- The masked-mean array after the run is the whole-array masked mean of the mask and text arrays as launched. -/
theorem final4 (c : Dev nD) : (dats m 0 c).arrAt 4 cfg0.N = maskedMean (maskArr m c) (textArr m c) :=
  (dats m 0 c).arrAt_eq_of_cover 4 (maskedMean (maskArr m c) (textArr m c)) (fun t _ => flushed4_eq m c t) cover4

/-! ## The run, read -/

/-- Every weakly fair execution of the kernel's program ends with the three computed results at the
    specification's functions of the argument arrays, and the arguments unchanged. -/
theorem run : θ_run defs (onTc (τ := τ) (main (F := Ideal))) ⟨m, fun _ => 0, ρ⟩ fun r => ∀ c : Dev nD,
      r.2.mem ((c : Thread nD τ).loc main_v8_0) = pickRow (m ((c : Thread nD τ).loc main_arg1)) (eotOf (m ((c : Thread nD τ).loc main_arg3)))
      ∧ r.2.mem ((c : Thread nD τ).loc main_v1) = clsOf (m ((c : Thread nD τ).loc main_arg0))
      ∧ r.2.mem ((c : Thread nD τ).loc main_v8_1) = maskedMean (m ((c : Thread nD τ).loc main_arg4)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      by
        rw [post3 m r h c, final3 m c]
        show rowSum (V m c main_v7) (V m c main_arg1) = _
        rw [V_weight m c, V_main_arg1 m c]
        exact rowSum_weight _ _,
      ((h c).2 main_v1 (Pipeline.mem_restRefs_of main_v1 (by decide) (by decide))).trans (V_cls m c),
      by
        rw [post4 m r h c, final4 m c]
        show maskedMean (V m c main_arg4) (V m c main_arg1) = _
        rw [V_main_arg4 m c, V_main_arg1 m c],
      kept_main_arg0 m r h c,
      kept_main_arg1 m r h c,
      kept_main_arg2 m r h c,
      kept_main_arg3 m r h c,
      kept_main_arg4 m r h c⟩)
    (run_main m ρ)

end Cert.Pool.KernelBlocks

end
-- ==== Proof.RefRun.lean ====
/-
  The reference program's run, read back: @main as the list of its host operations (the `argmax` function's five
  operations in place of its call), and what every weakly fair execution leaves in each result buffer as a pure
  term of the argument arrays.
-/
import proofs.«416764_j36077725287058_3_alg».proof.Proof.Gen.ReferenceIdeal
import Idealize.ShloMosaic.Lib.StableHlo.Run

noncomputable section

namespace Cert.Pool.RefRun

open Cert.ReferenceIdeal Cert.ReferenceIdeal.Gen Idealize.ShloMosaic Idealize.ShloMosaic.TcCoe Idealize.SL.Sem Idealize.ShloMosaic.StableHlo

variable {F : FTy → Type} [FloatOps F]

/-- The position `argmax` returns for each caption row: the index component of the two-operand reduce. -/
def eotOf (caps : (⟨S512x77, .i32⟩ : BufTy).Contents (Elt F)) : (⟨S512, .i32⟩ : BufTy).Contents (Elt F) :=
  fun j => (Host.reduce2 reducer_argmax_i32_i32 caps (iotaInDim S512x77 32 1) (constantI S_ 32 2147483648#32) (constantI S_ 32 0#32) reducesTo_S512x77_S512_d1 h_S_ j).2

/-- @main's operations in order, the call of `argmax` unfolded: the slice and its reshape; `argmax`'s five (the
    column iota, the two initial values, one line per result of the two-operand reduce) over the call's buffers;
    the row iota and the caption position, each wrapped into range by compare, add and select; their broadcasts
    to one column each, the concatenation and the gather; the mask's conversion, the contraction, and the
    division by the constant 77. -/
abbrev ops : List (HloOp τ sig (Elt F)) :=
  [ unary main_arg0 main_v0 ((extractStridedSlice S512x1x512 ![0, 0, 0] · slices_S512x193x512_S512x1x512_0_0_0) : (⟨S512x193x512, .f32⟩ : BufTy).Contents (Elt F) → (⟨S512x1x512, .f32⟩ : BufTy).Contents (Elt F)),
    reshape main_v0 main_v1 rfl shapeCasts_S512x1x512_S512x512,
    TRef.nullary main_call0.v0 (iotaInDim S512x77 32 1),
    TRef.nullary main_call0.c (constantI S_ 32 2147483648#32),
    TRef.nullary main_call0.c_0 (constantI S_ 32 0#32),
    TRef.quaternary (.of main_arg3) main_call0.v0 main_call0.c main_call0.c_0 main_call0.v1_0 (fun x y u v j => (Host.reduce2 reducer_argmax_i32_i32 x y u v reducesTo_S512x77_S512_d1 h_S_ j).1),
    TRef.quaternary (.of main_arg3) main_call0.v0 main_call0.c main_call0.c_0 main_call0.v1_1 (fun x y u v j => (Host.reduce2 reducer_argmax_i32_i32 x y u v reducesTo_S512x77_S512_d1 h_S_ j).2),
    nullary main_v3 (iotaInDim S512 32 0),
    nullary main_c (constantI S_ 32 0#32),
    unary main_c main_v4 (broadcastInDim S512 ![] bcast_S_S512 : (⟨S_, .i32⟩ : BufTy).Contents (Elt F) → (⟨S512, .i32⟩ : BufTy).Contents (Elt F)),
    binary main_v3 main_v4 main_v5 (cmpi .slt : (⟨S512, .i32⟩ : BufTy).Contents (Elt F) → (⟨S512, .i32⟩ : BufTy).Contents (Elt F) → (⟨S512, .i1⟩ : BufTy).Contents (Elt F)),
    nullary main_c_0 (constantI S_ 32 512#32),
    unary main_c_0 main_v6 (broadcastInDim S512 ![] bcast_S_S512 : (⟨S_, .i32⟩ : BufTy).Contents (Elt F) → (⟨S512, .i32⟩ : BufTy).Contents (Elt F)),
    binary main_v3 main_v6 main_v7 (addi : (⟨S512, .i32⟩ : BufTy).Contents (Elt F) → (⟨S512, .i32⟩ : BufTy).Contents (Elt F) → (⟨S512, .i32⟩ : BufTy).Contents (Elt F)),
    ternary main_v5 main_v7 main_v3 main_v8 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    nullary main_c_1 (constantI S_ 32 0#32),
    unary main_c_1 main_v9 (broadcastInDim S512 ![] bcast_S_S512 : (⟨S_, .i32⟩ : BufTy).Contents (Elt F) → (⟨S512, .i32⟩ : BufTy).Contents (Elt F)),
    binary main_v2 main_v9 main_v10 (cmpi .slt : (⟨S512, .i32⟩ : BufTy).Contents (Elt F) → (⟨S512, .i32⟩ : BufTy).Contents (Elt F) → (⟨S512, .i1⟩ : BufTy).Contents (Elt F)),
    nullary main_c_2 (constantI S_ 32 77#32),
    unary main_c_2 main_v11 (broadcastInDim S512 ![] bcast_S_S512 : (⟨S_, .i32⟩ : BufTy).Contents (Elt F) → (⟨S512, .i32⟩ : BufTy).Contents (Elt F)),
    binary main_v2 main_v11 main_v12 (addi : (⟨S512, .i32⟩ : BufTy).Contents (Elt F) → (⟨S512, .i32⟩ : BufTy).Contents (Elt F) → (⟨S512, .i32⟩ : BufTy).Contents (Elt F)),
    ternary main_v10 main_v12 main_v2 main_v13 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v8 main_v14 (broadcastInDim S512x1 ![0] bcast_S512_S512x1_0 : (⟨S512, .i32⟩ : BufTy).Contents (Elt F) → (⟨S512x1, .i32⟩ : BufTy).Contents (Elt F)),
    unary main_v13 main_v15 (broadcastInDim S512x1 ![0] bcast_S512_S512x1_0 : (⟨S512, .i32⟩ : BufTy).Contents (Elt F) → (⟨S512x1, .i32⟩ : BufTy).Contents (Elt F)),
    binary main_v14 main_v15 main_v16 ((fun a b => concatenate S512x2 1 [⟨S512x1, a⟩, ⟨S512x1, b⟩] concatenates_S512x1_S512x1_S512x2_d1) : (⟨S512x1, .i32⟩ : BufTy).Contents (Elt F) → (⟨S512x1, .i32⟩ : BufTy).Contents (Elt F) → (⟨S512x2, .i32⟩ : BufTy).Contents (Elt F)),
    binary main_arg1 main_v16 main_v17 ((fun x i => Host.gather gather_S512x77x512_S512x2_S512x512_1_01_n_n_01_1_11512 x i) : (⟨S512x77x512, .f32⟩ : BufTy).Contents (Elt F) → (⟨S512x2, .i32⟩ : BufTy).Contents (Elt F) → (⟨S512x512, .f32⟩ : BufTy).Contents (Elt F)),
    unary main_arg4 main_v18 (sitofp .f32 : (⟨S512x6x77, .i32⟩ : BufTy).Contents (Elt F) → (⟨S512x6x77, .f32⟩ : BufTy).Contents (Elt F)),
    binary main_v18 main_arg1 main_v19 ((fun l r => Host.dotGeneral dot_S512x6x77_S512x77x512_S512x6x512_2_1_1_2_0_0 none l r) : (⟨S512x6x77, .f32⟩ : BufTy).Contents (Elt F) → (⟨S512x77x512, .f32⟩ : BufTy).Contents (Elt F) → (⟨S512x6x512, .f32⟩ : BufTy).Contents (Elt F)),
    nullary main_cst (constant S_ .f32 0x429A0000#32),
    unary main_cst main_v20 (broadcastInDim S512x6x512 ![] bcast_S_S512x6x512 : (⟨S_, .f32⟩ : BufTy).Contents (Elt F) → (⟨S512x6x512, .f32⟩ : BufTy).Contents (Elt F)),
    binary main_v19 main_v20 main_v21 (Host.divf : (⟨S512x6x512, .f32⟩ : BufTy).Contents (Elt F) → (⟨S512x6x512, .f32⟩ : BufTy).Contents (Elt F) → (⟨S512x6x512, .f32⟩ : BufTy).Contents (Elt F)) ]

-- thirty-one binds re-associated: the rewrite under the chain recurses once per statement
set_option maxRecDepth 1024 in
/-- @main is that straight line: `argmax`'s definition unfolded at its call and the record at its fields, both
    sides are one chain of host steps once sequencing is reassociated. -/
theorem main_eq (c : Dev nD) : main (F := F) c = seq ops := by
  simp only [main, fn_argmax.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., nullary_bufs_sub .., nullary_bufs_sub .., nullary_bufs_sub ..,
    quaternary_bufs_sub .., quaternary_bufs_sub .., nullary_bufs_sub .., nullary_bufs_sub .., unary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub ..,
    binary_bufs_sub .., ternary_bufs_sub .., unary_bufs_sub .., unary_bufs_sub .., binary_bufs_sub ..,
    binary_bufs_sub .., unary_bufs_sub .., binary_bufs_sub .., nullary_bufs_sub .., unary_bufs_sub ..,
    binary_bufs_sub ..⟩

/-! ## The three computed results, as terms of the arguments -/

/-- The text result: row `b` of the text array at the caption position `eotOf caps b`. The gather reads the text at
    the start indices `(b, eotOf caps b)`: the row iota and the position, each wrapped into range (a negative index
    counted from the end: 512 rows, 77 positions), broadcast to one column each and concatenated. -/
def resText (text : (⟨S512x77x512, .f32⟩ : BufTy).Contents (Elt F)) (caps : (⟨S512x77, .i32⟩ : BufTy).Contents (Elt F)) : (⟨S512x512, .f32⟩ : BufTy).Contents (Elt F) :=
  Host.gather gather_S512x77x512_S512x2_S512x512_1_01_n_n_01_1_11512 text
    (concatenate S512x2 1
      [⟨S512x1, broadcastInDim S512x1 ![0] bcast_S512_S512x1_0
          (select (cmpi .slt (iotaInDim S512 32 0) (broadcastInDim S512 ![] bcast_S_S512 (constantI S_ 32 0#32)))
            (addi (iotaInDim S512 32 0) (broadcastInDim S512 ![] bcast_S_S512 (constantI S_ 32 512#32)))
            (iotaInDim S512 32 0))⟩,
        ⟨S512x1, broadcastInDim S512x1 ![0] bcast_S512_S512x1_0
          (select (cmpi .slt (eotOf caps) (broadcastInDim S512 ![] bcast_S_S512 (constantI S_ 32 0#32)))
            (addi (eotOf caps) (broadcastInDim S512 ![] bcast_S_S512 (constantI S_ 32 77#32)))
            (eotOf caps))⟩]
      concatenates_S512x1_S512x1_S512x2_d1)

/-- The image result: position 0 of every image row, the unit axis dropped. -/
def resImg (img : (⟨S512x193x512, .f32⟩ : BufTy).Contents (Elt F)) : (⟨S512x512, .f32⟩ : BufTy).Contents (Elt F) :=
  shapeCast S512x512 (extractStridedSlice S512x1x512 ![0, 0, 0] img slices_S512x193x512_S512x1x512_0_0_0)
    shapeCasts_S512x1x512_S512x512

/-- The local result: per row, the mask (as floats) contracted with the text over the 77 positions, divided by 77. -/
def resLocal (mask : (⟨S512x6x77, .i32⟩ : BufTy).Contents (Elt F)) (text : (⟨S512x77x512, .f32⟩ : BufTy).Contents (Elt F)) : (⟨S512x6x512, .f32⟩ : BufTy).Contents (Elt F) :=
  Host.divf (Host.dotGeneral dot_S512x6x77_S512x77x512_S512x6x512_2_1_1_2_0_0 none (sitofp .f32 mask) text)
    (broadcastInDim S512x6x512 ![] bcast_S_S512x6x512 (constant S_ .f32 0x429A0000#32))

/-! ## What each buffer holds after the operations -/

attribute [local irreducible] Host.reduce2 Host.gather in
set_option maxRecDepth 8192 in
set_option maxHeartbeats 400000 in
/-- The fold at the text result's buffer: each operation's result at its own buffer is its function's value, at any
    other what was there; the typed references' transports are the identity at these literal references, so what is
    left is `resText` by computation, the two-operand reduce and the gather kept folded. -/
theorem text_eq (V : Valuation τ sig (Elt F)) :
    after ops V (main_v17 : DevRef τ sig) = resText (V (main_arg1 : DevRef τ sig)) (V (main_arg3 : DevRef τ sig)) := by
  after_results
  unfold resText eotOf
  rfl

theorem img_eq (V : Valuation τ sig (Elt F)) :
    after ops V (main_v1 : DevRef τ sig) = resImg (V (main_arg0 : DevRef τ sig)) := by
  after_results
  rfl

theorem local_eq (V : Valuation τ sig (Elt F)) :
    after ops V (main_v21 : DevRef τ sig) = resLocal (V (main_arg4 : DevRef τ sig)) (V (main_arg1 : DevRef τ sig)) := by
  after_results
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results

/-- On every device, for any float values, from any memory with zero counters: every weakly fair execution of
    @main terminates with each result at its term of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = resText (m ((c.tc : Thread nD τ).loc main_arg1)) (m ((c.tc : Thread nD τ).loc main_arg3))
      ∧ r.2.mem ((c.tc : Thread nD τ).loc main_v1) = resImg (m ((c.tc : Thread nD τ).loc main_arg0))
      ∧ r.2.mem ((c.tc : Thread nD τ).loc main_v21) = resLocal (m ((c.tc : Thread nD τ).loc main_arg4)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans (text_eq _), (h c main_v1).trans (img_eq _),
      (h c main_v21).trans (local_eq _), (h c main_arg0).trans (arg0_eq _), (h c main_arg1).trans (arg1_eq _),
      (h c main_arg2).trans (arg2_eq _), (h c main_arg3).trans (arg3_eq _), (h c main_arg4).trans (arg4_eq _)⟩)
    (run_seq scopedRefs_eq scopedSems_eq defs main (fun _ => ops) main_eq (fun _ => ops_sub) m ρ)

end Cert.Pool.RefRun

end
-- ==== Proof.LibRowGather.lean ====
/-
  A gather that picks ONE ROW per batch entry, read at an index.

  For an array `x : [n, T, D]` and a table of start indices `idx : [n, 2]` whose row `b` holds a pair
  (batch position, row position), the gather with the two leading operand axes collapsed and start-indexed, the last
  operand axis kept whole as the result's one offset axis, and the index vector on axis 1, returns at `(b, c)`
  the entry `x[i, t, c]`, where `i` and `t` are the two components of row `b` of the table, each read as a signed
  integer and clamped into its axis (below at `0`, above at the last position).
-/
import Idealize.ShloMosaic.PureOps.Ideal
import Idealize.ShloMosaic.Lib.ValueIdx

namespace Cert.Pool.RowGather

open Idealize.ShloMosaic Idealize.ShloMosaic.ValueIdx

/-- The gather at `(b, c)` is the operand at (clamped first component, clamped second component, `c`). -/
theorem gather_row_apply {α : Type} {n T D w : Nat}
    (d : GatherDims ⟨3, ![n, T, D]⟩ ⟨2, ![n, 2]⟩ ⟨2, ![n, D]⟩)
    (hoff : d.offsetDims = [1]) (hcoll : d.collapsedSliceDims = [0, 1]) (hob : d.operandBatchingDims = [])
    (hsim : d.startIndexMap = [0, 1]) (hivd : d.indexVectorDim = 1)
    (x : (⟨3, ![n, T, D]⟩ : Shape).Idx → α) (idx : IVec ⟨2, ![n, 2]⟩ w) (b : Fin n) (c : Fin D)
    (hn : 0 < n) (hT : 0 < T) :
    Host.gather d x idx (ix2 b c)
      = x (ix3 (⟨min (idx (ix2 b (0 : Fin 2))).toInt.toNat (n - 1), by omega⟩ : Fin n)
               (⟨min (idx (ix2 b (1 : Fin 2))).toInt.toNat (T - 1), by omega⟩ : Fin T) c) := by
  -- no operand axis is a batching axis
  have hnb : ∀ a : Fin 3, a ∉ d.operandBatchingDims := fun a => by rw [hob]; exact List.not_mem_nil
  -- the result's only batch axis is axis 0: on it the result index `(b, c)` has coordinate `b`
  have hbatch : ∀ X : Fin 2, X ∈ d.batchDims → ((ix2 b c : (⟨2, ![n, D]⟩ : Shape).Idx) X).val = b.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- the result's only offset axis is axis 1: on it the result index `(b, c)` has coordinate `c`
  have hoffs : ∀ X : Fin 2, X ∈ d.offsetDims → ((ix2 b c : (⟨2, ![n, D]⟩ : Shape).Idx) X).val = c.val := by
    intro X hX
    rw [hoff] at hX
    obtain rfl := List.mem_singleton.mp hX
    rfl
  -- component `k` of the start index of result index `(b, c)` is read at position `(b, k)` of the table
  have hsi : ∀ (k : Fin d.startIndexMap.length) (k' : Fin 2), k.val = k'.val →
      d.siIdx (ix2 b c) k = ix2 b k' := by
    intro k k' hk
    funext e
    apply Fin.ext
    match e with
    | ⟨0, _⟩ =>
      unfold GatherDims.siIdx
      rw [dif_neg (by rw [hivd]; exact Nat.zero_ne_one)]
      unfold GatherDims.siCoord
      simp only [Fin.val_cast]
      exact hbatch _ (List.getElem_mem _)
    | ⟨1, _⟩ =>
      unfold GatherDims.siIdx
      rw [dif_pos (by rw [hivd])]
      exact hk
  unfold Host.gather
  congr 1
  funext a
  apply Fin.ext
  match a with
  | ⟨0, h0⟩ =>
    -- axis 0: collapsed and start-indexed by component 0
    have hm : (⟨0, h0⟩ : Fin 3) ∈ d.startIndexMap := by rw [hsim]; exact List.mem_cons_self
    have hk : (⟨0, h0⟩ : Fin 3) ∉ d.sKept := by
      rw [GatherDims.mem_sKept, hcoll]; exact fun h => h.1 List.mem_cons_self
    have hsl : d.sliceSizes ⟨0, h0⟩ = 1 := d.slice_collapsed _ (by rw [hcoll]; exact List.mem_cons_self)
    show d.start (ix2 b c) idx ⟨0, h0⟩ + d.batchCoord (ix2 b c) ⟨0, h0⟩ + d.offCoord (ix2 b c) ⟨0, h0⟩
      = min (idx (ix2 b (0 : Fin 2))).toInt.toNat (n - 1)
    rw [d.batchCoord_eq_zero _ _ (hnb _), d.offCoord_eq_zero _ _ hk, Nat.add_zero]
    unfold GatherDims.start
    rw [dif_pos hm, hsl, hsi _ (0 : Fin 2) (by show List.idxOf _ d.startIndexMap = 0; rw [hsim]; rfl)]
    rfl
  | ⟨1, h1⟩ =>
    -- axis 1: collapsed and start-indexed by component 1
    have hm : (⟨1, h1⟩ : Fin 3) ∈ d.startIndexMap := by
      rw [hsim]; exact List.mem_cons_of_mem _ List.mem_cons_self
    have hk : (⟨1, h1⟩ : Fin 3) ∉ d.sKept := by
      rw [GatherDims.mem_sKept, hcoll]; exact fun h => h.1 (List.mem_cons_of_mem _ List.mem_cons_self)
    have hsl : d.sliceSizes ⟨1, h1⟩ = 1 :=
      d.slice_collapsed _ (by rw [hcoll]; exact List.mem_cons_of_mem _ List.mem_cons_self)
    show d.start (ix2 b c) idx ⟨1, h1⟩ + d.batchCoord (ix2 b c) ⟨1, h1⟩ + d.offCoord (ix2 b c) ⟨1, h1⟩
      = min (idx (ix2 b (1 : Fin 2))).toInt.toNat (T - 1)
    rw [d.batchCoord_eq_zero _ _ (hnb _), d.offCoord_eq_zero _ _ hk, Nat.add_zero]
    unfold GatherDims.start
    rw [dif_pos hm, hsl, hsi _ (1 : Fin 2) (by show List.idxOf _ d.startIndexMap = 1; rw [hsim]; rfl)]
    rfl
  | ⟨2, h2⟩ =>
    -- axis 2: neither collapsed nor start-indexed; the whole axis is the slice, read at the offset coordinate
    have hm : (⟨2, h2⟩ : Fin 3) ∉ d.startIndexMap := by
      rw [hsim]; exact (by decide : (2 : Fin 3) ∉ [0, 1])
    have hk : (⟨2, h2⟩ : Fin 3) ∈ d.sKept := by
      rw [GatherDims.mem_sKept, hcoll]; exact ⟨(by decide : (2 : Fin 3) ∉ [0, 1]), hnb _⟩
    show d.start (ix2 b c) idx ⟨2, h2⟩ + d.batchCoord (ix2 b c) ⟨2, h2⟩ + d.offCoord (ix2 b c) ⟨2, h2⟩ = c.val
    rw [d.batchCoord_eq_zero _ _ (hnb _), Nat.add_zero]
    unfold GatherDims.start GatherDims.offCoord
    rw [dif_neg hm, dif_pos hk, Nat.zero_add]
    exact hoffs _ (List.getElem_mem _)

end Cert.Pool.RowGather
-- ==== Proof.RefValue.lean ====
/-
  The reference's three results are the specification's functions of the argument arrays.

  The gathered text: row `b` of the start-index table is (b, the row's end-of-text position); both components are
  non-negative and inside their axes (the first is an iota below 512, the second an arg-max position below 77), so the
  two "add the extent if negative" selects and the gather's clamps change nothing, and the gather reads
  `text[b, position b, d]`. The masked mean: the host's contraction at an index is the plain sum over the 77 token
  positions of mask entry (as a number) times text entry, and the host's quotient is the extended reals' division.
  The first image token: a slice of width one along the token axis, reshaped to drop that axis.
-/
import proofs.«416764_j36077725287058_3_alg».proof.Proof.RefRun
import proofs.«416764_j36077725287058_3_alg».proof.Proof.Spec
import proofs.«416764_j36077725287058_3_alg».proof.Proof.LibFoldSelect
import proofs.«416764_j36077725287058_3_alg».proof.Proof.LibRowGather
import proofs.«416764_j36077725287058_3_alg».proof.Proof.LibContraction
import Idealize.ShloMosaic.PureOps.Ideal.Laws
import Idealize.ShloMosaic.Lib.ValueIdx
import Idealize.ShloMosaic.Lib.Pipeline.Value

open scoped BigOperators

noncomputable section

namespace Cert.Pool.RefValue

open Cert.ReferenceIdeal Cert.ReferenceIdeal.Gen Idealize.ShloMosaic Idealize.ShloMosaic.ValueIdx
open Cert.Pool.RefRun Cert.Pool.Spec

/-- The arg-max's combining function takes its position from one of its two arguments. -/
theorem reducer_selects (a b : BitVec 32 × BitVec 32) :
    (reducer_argmax_i32_i32 a b).2 = a.2 ∨ (reducer_argmax_i32_i32 a b).2 = b.2 := by
  unfold reducer_argmax_i32_i32
  exact FoldSelect.select_eq_or _ _ _

/-- Every row's end-of-text position is one of the 77 token positions. -/
theorem eot_lt (caps : (⟨S512x77, .i32⟩ : BufTy).Contents (Elt Ideal)) (j : S512.Idx) : (eotOf caps j).toNat < 77 := by
  unfold eotOf
  refine FoldSelect.reduce2_snd_of_select reducer_argmax_i32_i32 reducer_selects caps _ _ _ _ _
    (fun w : BitVec 32 => w.toNat < 77) ?_ ?_ j
  · show (0#32 : BitVec 32).toNat < 77
    decide
  · intro i
    show (BitVec.ofNat 32 (i 1).val).toNat < 77
    exact FoldSelect.toNat_ofNat_lt (i 1).isLt (by decide)

/-! ## Words that are not negative -/

/-- A 32-bit word below `2^31` reads the same signed as unsigned. -/
theorem toInt_of_lt (x : BitVec 32) (hx : x.toNat < 2 ^ 31) : x.toInt = (x.toNat : Int) := by
  rw [BitVec.toInt_eq_toNat_cond, if_pos (by omega)]

/-- Such a word is not below zero in the signed order. -/
theorem slt_zero_of_lt (x : BitVec 32) (hx : x.toNat < 2 ^ 31) : IntOp.cmpi .slt x 0#32 = 0#1 := by
  have h : x.slt 0#32 = false := by
    unfold BitVec.slt
    rw [toInt_of_lt x hx]
    simp
  show BitVec.ofBool (x.slt 0#32) = 0#1
  rw [h]
  rfl

/-- "Add the extent if negative" returns a word below `2^31` unchanged. -/
theorem wrap_of_lt (x e : BitVec 32) (hx : x.toNat < 2 ^ 31) :
    Scalar.select (IntOp.cmpi .slt x 0#32) (IntOp.addi x e) x = x := by
  rw [slt_zero_of_lt x hx, select_zero]

/-- The signed reading of a word below `2^31`, as a natural number, is the word's own. -/
theorem toInt_toNat_of_lt (x : BitVec 32) (hx : x.toNat < 2 ^ 31) : x.toInt.toNat = x.toNat := by
  rw [toInt_of_lt x hx, Int.toNat_natCast]

/-- The same on a whole column of positions, read at a row. -/
theorem wrapped_apply (U : S512.Idx → BitVec 32) (e : BitVec 32) (j : S512.Idx) (hU : (U j).toNat < 2 ^ 31) :
    select (cmpi .slt U (broadcastInDim S512 ![] bcast_S_S512 (constantI S_ 32 0#32)))
      (addi U (broadcastInDim S512 ![] bcast_S_S512 (constantI S_ 32 e))) U j = U j :=
  wrap_of_lt (U j) e hU

/-! ## The start-index table, read at a row -/

/-- A column of 512 words as a `[512, 1]` array reads, at `(b, 0)`, the column at `b`. -/
theorem column_apply (u : S512.Idx → BitVec 32) (b : Fin 512) :
    broadcastInDim S512x1 ![0] bcast_S512_S512x1_0 u (ix2 b (0 : Fin 1)) = u (ix1 b) := by
  unfold broadcastInDim
  refine congrArg u (funext fun a => ?_)
  match a with
  | ⟨0, _⟩ => exact Fin.ext rfl

/-- The two-column table's first entry of row `b` is the first column at `b` … -/
theorem table_apply_left (u v : S512.Idx → BitVec 32) (b : Fin 512) :
    concatenate S512x2 1 [⟨S512x1, broadcastInDim S512x1 ![0] bcast_S512_S512x1_0 u⟩,
        ⟨S512x1, broadcastInDim S512x1 ![0] bcast_S512_S512x1_0 v⟩] concatenates_S512x1_S512x1_S512x2_d1 (ix2 b (0 : Fin 2))
      = u (ix1 b) := by
  refine (concatenate_pair_apply_left (t := S512x2) (s₁ := S512x1) (s₂ := S512x1) 1 _ _
    concatenates_S512x1_S512x1_S512x2_d1 (ix2 b (0 : Fin 2)) rfl (ix2 b (0 : Fin 1)) (fun a => ?_)).trans (column_apply u b)
  match a with
  | ⟨0, _⟩ => rfl
  | ⟨1, _⟩ => rfl

/-- … and its second entry the second column at `b`. -/
theorem table_apply_right (u v : S512.Idx → BitVec 32) (b : Fin 512) :
    concatenate S512x2 1 [⟨S512x1, broadcastInDim S512x1 ![0] bcast_S512_S512x1_0 u⟩,
        ⟨S512x1, broadcastInDim S512x1 ![0] bcast_S512_S512x1_0 v⟩] concatenates_S512x1_S512x1_S512x2_d1 (ix2 b (1 : Fin 2))
      = v (ix1 b) := by
  refine (concatenate_pair_apply_right (t := S512x2) (s₁ := S512x1) (s₂ := S512x1) 1 _ _
    concatenates_S512x1_S512x1_S512x2_d1 (ix2 b (1 : Fin 2)) rfl rfl (ix2 b (0 : Fin 1)) (fun a ha => ?_) rfl).trans (column_apply v b)
  match a with
  | ⟨0, _⟩ => rfl
  | ⟨1, _⟩ => exact absurd rfl ha

/-- A word at most `n`, `n` below `2^31`, wrapped and then clamped into `[0, n]`, reads as itself. -/
theorem clamp_of_le (x : BitVec 32) (n : Nat) (hx : x.toNat ≤ n) (hn : n < 2 ^ 31) : min x.toInt.toNat n = x.toNat := by
  rw [toInt_toNat_of_lt x (by omega)]
  exact Nat.min_eq_left hx

attribute [local irreducible] eotOf Host.reduce2 in
/-- The gathered text is the text row at each batch entry's end-of-text position. -/
theorem resText_eq (text : (⟨S512x77x512, .f32⟩ : BufTy).Contents (Elt Ideal)) (caps : (⟨S512x77, .i32⟩ : BufTy).Contents (Elt Ideal)) :
    resText text caps = pickRow text (eotOf caps) := by
  funext i
  obtain ⟨b, d, rfl⟩ : ∃ (b : Fin 512) (d : Fin 512), i = ix2 b d := ⟨i 0, i 1, eq_ix2 i⟩
  rw [pickRow_apply text (eotOf caps) b d (eot_lt caps (ix1 b))]
  unfold resText
  refine (RowGather.gather_row_apply (n := 512) (T := 77) (D := 512)
    gather_S512x77x512_S512x2_S512x512_1_01_n_n_01_1_11512 rfl rfl rfl rfl rfl text _ b d (by decide) (by decide)).trans ?_
  -- the row iota at `b` is the word of `b`, below 512; the position is below 77
  have h0 : (iotaInDim S512 32 0 (ix1 b) : BitVec 32).toNat = b.val := by
    show (BitVec.ofNat 32 b.val).toNat = b.val
    rw [BitVec.toNat_ofNat]
    exact Nat.mod_eq_of_lt (by omega)
  have h1 := eot_lt caps (ix1 b)
  refine congrArg text (funext fun a => Fin.ext ?_)
  match a with
  | ⟨0, _⟩ =>
    show min (_ : BitVec 32).toInt.toNat (512 - 1) = b.val
    rw [table_apply_left, wrapped_apply _ _ _ (by omega), clamp_of_le _ _ (by omega) (by decide), h0]
  | ⟨1, _⟩ =>
    show min (_ : BitVec 32).toInt.toNat (77 - 1) = (eotOf caps (ix1 b)).toNat
    rw [table_apply_right, wrapped_apply _ _ _ (by omega), clamp_of_le _ _ (by omega) (by decide)]
  | ⟨2, _⟩ => rfl

/-- The reference's masked mean is the specification's. -/
theorem resLocal_eq (mask : (⟨S512x6x77, .i32⟩ : BufTy).Contents (Elt Ideal)) (text : (⟨S512x77x512, .f32⟩ : BufTy).Contents (Elt Ideal)) :
    resLocal mask text = maskedMean mask text := by
  funext i
  obtain ⟨b, c, d, rfl⟩ : ∃ (b : Fin 512) (c : Fin 6) (d : Fin 512), i = ix3 b c d := ⟨i 0, i 1, i 2, eq_ix3 i⟩
  rw [maskedMean_apply]
  unfold resLocal
  rw [show ∀ (x y : FVec Ideal S512x6x512 .f32) (i : S512x6x512.Idx), Host.divf x y i = Ideal.div (x i) (y i) from
    fun _ _ _ => rfl]
  simp only [Host.dotGeneral]
  rw [Ideal.dotGeneral_apply]
  refine congrArg₂ Ideal.div ?_ rfl
  exact Contraction.sum_eq (B := 512) (C := 6) (K := 77) (D := 512) dot_S512x6x77_S512x77x512_S512x6x512_2_1_1_2_0_0_wf
    (fun l r => (((mask l).toInt : ℝ) : EReal) * text r) b c d

/-- The reference's image result is the first image token. -/
theorem resImg_eq (img : (⟨S512x193x512, .f32⟩ : BufTy).Contents (Elt Ideal)) : resImg img = firstToken img := by
  funext i
  obtain ⟨b, d, rfl⟩ : ∃ (b : Fin 512) (d : Fin 512), i = ix2 b d := ⟨i 0, i 1, eq_ix2 i⟩
  rw [firstToken_apply]
  unfold resImg
  refine (shapeCast_apply _ _ (ix2 b d) (ix3 b (0 : Fin 1) d) ?_).trans ?_
  · rw [Shape.rowMajor_val_three, Shape.rowMajor_val_two]
    show (b.val * 1 + 0) * 512 + d.val = b.val * 512 + d.val
    omega
  · refine extractStridedSlice_apply _ _ _ _ _ (fun ax => ?_)
    match ax with
    | ⟨0, _⟩ => exact (Nat.zero_add _).symm
    | ⟨1, _⟩ => rfl
    | ⟨2, _⟩ => exact (Nat.zero_add _).symm

end Cert.Pool.RefValue

end
-- ==== Proof.lean ====
/-
  The kernel and its reference compute the same three arrays (and pass the logit scale through).

  The kernel's program builds, on the host, a one-hot weight over the 77 token positions of each caption row — 1 at the
  row's end-of-text position, the arg-max of its token ids — and one launch over 8 blocks of 64 batch rows then
  (i) sums weight times text over the token positions, which for a one-hot weight is the text row at the
  end-of-text position, and (ii) contracts the integer noun-chunk mask, read as numbers, with the text over the token
  positions and divides by 77. The reference gathers the text row at (b, end-of-text position of b) directly and takes
  the same contraction and quotient on the host. On the extended reals a change of float format is the identity,
  `0 * x = 0` and `1 * x = x`, a sum with one non-zero term is that term, and the two contractions are one finite sum:
  so the results agree index by index, for every input (the arg-max position is always one of the 77 positions, so the
  gather's wrap-around and clamp never act). The image result is the same slice and reshape in both programs.
  The idealization rewrote nothing in the kernel, so what it preserves is trivially true.
-/
import proofs.«416764_j36077725287058_3_alg».proof.Defs
import proofs.«416764_j36077725287058_3_alg».proof.Proof.Gen.Kernel
import proofs.«416764_j36077725287058_3_alg».proof.Proof.Gen.Kernel.Skeleton
import proofs.«416764_j36077725287058_3_alg».proof.Proof.Gen.Kernel.Launch
import proofs.«416764_j36077725287058_3_alg».proof.Proof.Gen.Kernel.Points
import proofs.«416764_j36077725287058_3_alg».proof.Proof.Gen.Kernel.Frame
import proofs.«416764_j36077725287058_3_alg».proof.Proof.Gen.KernelIdeal
import proofs.«416764_j36077725287058_3_alg».proof.Proof.Gen.KernelIdeal.Skeleton
import proofs.«416764_j36077725287058_3_alg».proof.Proof.Gen.KernelIdeal.Launch
import proofs.«416764_j36077725287058_3_alg».proof.Proof.Gen.KernelIdeal.Points
import proofs.«416764_j36077725287058_3_alg».proof.Proof.Gen.KernelIdeal.Frame
import proofs.«416764_j36077725287058_3_alg».proof.Proof.Gen.KernelIdeal.Value
import proofs.«416764_j36077725287058_3_alg».proof.Proof.Gen.ReferenceIdeal
import proofs.«416764_j36077725287058_3_alg».proof.Proof.Gen.Pre_finite_inputs
import proofs.«416764_j36077725287058_3_alg».proof.Proof.KernelBlocks
import proofs.«416764_j36077725287058_3_alg».proof.Proof.RefRun
import proofs.«416764_j36077725287058_3_alg».proof.Proof.RefValue

noncomputable section

namespace Cert.Proof

open Idealize.ShloMosaic Idealize.ShloMosaic.TcCoe Idealize.SL.Sem
open Cert.Pool

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: it terminates and writes no argument. -/
theorem frame_referenceIdeal : Cert.frame_ReferenceIdeal := fun m ρ _ =>
  (θ_run Cert.ReferenceIdeal.defs _ _).mono (fun _ h c => (h c).2.2.2) (RefRun.run (F := Ideal) m ρ)

/-- The idealization rewrote no operation. -/
theorem preserves : Cert.preserves_Kernel_KernelIdeal := trivial

/-- The two programs run from memories that agree on the arguments end with equal results: the text row at the
    end-of-text position, the first image token, the masked mean, and the logit scale. -/
theorem algebraic : Cert.algebraic_KernelIdeal_ReferenceIdeal := by
  intro m ρ m' ρ' _ hagree
  refine ⟨fun c => Spec.pickRow (m ((c : Thread Cert.KernelIdeal.nD Cert.KernelIdeal.τ).loc Cert.KernelIdeal.main_arg1))
      (KernelHost.eotOf (m ((c : Thread Cert.KernelIdeal.nD Cert.KernelIdeal.τ).loc Cert.KernelIdeal.main_arg3))),
    fun c => KernelHost.clsOf (m ((c : Thread Cert.KernelIdeal.nD Cert.KernelIdeal.τ).loc Cert.KernelIdeal.main_arg0)),
    fun c => Spec.maskedMean (m ((c : Thread Cert.KernelIdeal.nD Cert.KernelIdeal.τ).loc Cert.KernelIdeal.main_arg4))
      (m ((c : Thread Cert.KernelIdeal.nD Cert.KernelIdeal.τ).loc Cert.KernelIdeal.main_arg1)),
    fun c => m ((c : Thread Cert.KernelIdeal.nD Cert.KernelIdeal.τ).loc Cert.KernelIdeal.main_arg2), ?_, ?_⟩
  · refine (θ_run Cert.KernelIdeal.defs _ _).mono (fun r h c => ?_) (KernelBlocks.run m ρ)
    obtain ⟨h0, h1, h2, a0, a1, a2, a3, a4⟩ := h c
    exact ⟨h0, h1, h2, a2, a0, a1, a2, a3, a4⟩
  · refine (θ_run Cert.ReferenceIdeal.defs _ _).mono (fun r h c => ?_) (RefRun.run (F := Ideal) m' ρ')
    obtain ⟨h0, h1, h2, a0, a1, a2, a3, a4⟩ := h c
    obtain ⟨g0, g1, g2, g3, g4⟩ := hagree c
    refine ⟨?_, ?_, ?_, a2.trans g2, a0, a1, a2, a3, a4⟩
    · rw [h0, RefValue.resText_eq, g1, g3]
      rfl
    · rw [h1, g0]
      rfl
    · rw [h2, RefValue.resLocal_eq, g4, g1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
